-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x256 : Shape := ⟨3, ![16, 16384, 256]⟩
abbrev S32x256 : Shape := ⟨2, ![32, 256]⟩
abbrev S32 : Shape := ⟨1, ![32]⟩
abbrev S_ : Shape := ⟨0, ![]⟩

class Facts : Prop where
  bcast_S_S16x16384x256 : S_.BroadcastsInDim S16x16384x256 (![] : Fin 0 → Fin S16x16384x256.rank)
  reducesTo_S16x16384x256_S_d0_1_2 : S16x16384x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x256 1) : IVec S_ 1 :=
  let main_c_5 : IVec S_ 1 := constantI S_ 1 1#1
  let main_v17 : IVec S_ 1 := (fun x v => Host.reduce IntOp.andi x v reducesTo_S32x256_S_d0_1 h_S_) main_v16 main_c_5
  let main_v18 : IVec S_ 1 := andi main_v13 main_v17
  main_v18

def fn {F : FTy → Type} [FloatOps F] (main_arg0 : FVec F S16x16384x256 .f32) (main_arg1 : FVec F S32x256 .f32) (main_arg2 : FVec F S32 .f32) (main_arg3 : FVec F S32x256 .f32) : IVec S_ 1 :=
  let main_v0 : FVec F S16x16384x256 .f32 := Host.absf main_arg0
  let main_cst : FVec F S_ .f32 := constant S_ .f32 0x7F800000#32
  let main_v1 : FVec F S16x16384x256 .f32 := broadcastInDim S16x16384x256 ![] bcast_S_S16x16384x256 main_cst
  let main_v2 : IVec S16x16384x256 1 := cmpf .olt main_v0 main_v1
  let main_c : IVec S_ 1 := constantI S_ 1 1#1
  let main_v3 : IVec S_ 1 := (fun x v => Host.reduce IntOp.andi x v reducesTo_S16x16384x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x256 .f32 := Host.absf main_arg3
  let main_cst_4 : FVec F S_ .f32 := constant S_ .f32 0x7F800000#32
  let main_v15 : FVec F S32x256 .f32 := broadcastInDim S32x256 ![] bcast_S_S32x256 main_cst_4
  let main_v16 : IVec S32x256 1 := cmpf .olt main_v14 main_v15
  fn_part1 (F := F) main_v13 main_v16
-- ==== Kernel.lean ====
abbrev S16x16384x256 : Shape := ⟨3, ![16, 16384, 256]⟩
abbrev S32x256 : Shape := ⟨2, ![32, 256]⟩
abbrev S32 : Shape := ⟨1, ![32]⟩
abbrev S256x32 : Shape := ⟨2, ![256, 32]⟩
abbrev S1x32 : Shape := ⟨2, ![1, 32]⟩
abbrev S16x32x256 : Shape := ⟨3, ![16, 32, 256]⟩
abbrev S16x1x32 : Shape := ⟨3, ![16, 1, 32]⟩
abbrev S1x4096x256 : Shape := ⟨3, ![1, 4096, 256]⟩
abbrev S1x32x256 : Shape := ⟨3, ![1, 32, 256]⟩
abbrev S1x1x32 : Shape := ⟨3, ![1, 1, 32]⟩
abbrev S4096x256 : Shape := ⟨2, ![4096, 256]⟩
abbrev S4096x32 : Shape := ⟨2, ![4096, 32]⟩
abbrev S4096 : Shape := ⟨1, ![4096]⟩
abbrev S4096x1 : Shape := ⟨2, ![4096, 1]⟩
abbrev S16x32 : Shape := ⟨2, ![16, 32]⟩
abbrev S16x32x1 : Shape := ⟨3, ![16, 32, 1]⟩
abbrev S_ : Shape := ⟨0, ![]⟩
abbrev S16x8192 : Shape := ⟨2, ![16, 8192]⟩
abbrev S16 : Shape := ⟨1, ![16]⟩
abbrev S16x1 : Shape := ⟨2, ![16, 1]⟩

abbrev nBuf : Space → Nat
  | .hbm => 36
  | .vmem => 8
  | .smem => 0
  | _ => 0

abbrev bufTy : (tb : Table) → Fin (tcTables nBuf tb) → BufTy
  | .hbm, ⟨0, _⟩ => ⟨S16x16384x256, .f32⟩
  | .hbm, ⟨1, _⟩ => ⟨S32x256, .f32⟩
  | .hbm, ⟨2, _⟩ => ⟨S32, .f32⟩
  | .hbm, ⟨3, _⟩ => ⟨S32x256, .f32⟩
  | .hbm, ⟨4, _⟩ => ⟨S256x32, .f32⟩
  | .hbm, ⟨5, _⟩ => ⟨S1x32, .f32⟩
  | .hbm, ⟨6, _⟩ => ⟨S16x32x256, .f32⟩
  | .hbm, ⟨7, _⟩ => ⟨S16x1x32, .f32⟩
  | .hbm, ⟨8, _⟩ => ⟨S16x32, .f32⟩
  | .hbm, ⟨9, _⟩ => ⟨S16x32x1, .f32⟩
  | .hbm, ⟨10, _⟩ => ⟨S1x32x256, .f32⟩
  | .hbm, ⟨11, _⟩ => ⟨S16x32x256, .f32⟩
  | .hbm, ⟨12, _⟩ => ⟨S16x32x256, .f32⟩
  | .hbm, ⟨13, _⟩ => ⟨S16x32x256, .f32⟩
  | .hbm, ⟨14, _⟩ => ⟨S16x32x256, .f32⟩
  | .hbm, ⟨15, _⟩ => ⟨S16x32x256, .f32⟩
  | .hbm, ⟨16, _⟩ => ⟨S_, .f32⟩
  | .hbm, ⟨17, _⟩ => ⟨S16x32, .f32⟩
  | .hbm, ⟨18, _⟩ => ⟨S16x32x1, .f32⟩
  | .hbm, ⟨19, _⟩ => ⟨S16x32x1, .f32⟩
  | .hbm, ⟨20, _⟩ => ⟨S_, .f32⟩
  | .hbm, ⟨21, _⟩ => ⟨S16x32x1, .f32⟩
  | .hbm, ⟨22, _⟩ => ⟨S16x32x1, .f32⟩
  | .hbm, ⟨23, _⟩ => ⟨S16x32x256, .f32⟩
  | .hbm, ⟨24, _⟩ => ⟨S16x32x256, .f32⟩
  | .hbm, ⟨25, _⟩ => ⟨S16x8192, .f32⟩
  | .hbm, ⟨26, _⟩ => ⟨S16x8192, .f32⟩
  | .hbm, ⟨27, _⟩ => ⟨S_, .f32⟩
  | .hbm, ⟨28, _⟩ => ⟨S16, .f32⟩
  | .hbm, ⟨29, _⟩ => ⟨S16x1, .f32⟩
  | .hbm, ⟨30, _⟩ => ⟨S16x1, .f32⟩
  | .hbm, ⟨31, _⟩ => ⟨S_, .f32⟩
  | .hbm, ⟨32, _⟩ => ⟨S16x1, .f32⟩
  | .hbm, ⟨33, _⟩ => ⟨S16x1, .f32⟩
  | .hbm, ⟨34, _⟩ => ⟨S16x8192, .f32⟩
  | .hbm, ⟨35, _⟩ => ⟨S16x8192, .f32⟩
  | .local _ .vmem, ⟨0, _⟩ => ⟨S1x4096x256, .f32⟩
  | .local _ .vmem, ⟨1, _⟩ => ⟨S1x4096x256, .f32⟩
  | .local _ .vmem, ⟨2, _⟩ => ⟨S256x32, .f32⟩
  | .local _ .vmem, ⟨3, _⟩ => ⟨S1x32, .f32⟩
  | .local _ .vmem, ⟨4, _⟩ => ⟨S1x32x256, .f32⟩
  | .local _ .vmem, ⟨5, _⟩ => ⟨S1x32x256, .f32⟩
  | .local _ .vmem, ⟨6, _⟩ => ⟨S1x1x32, .f32⟩
  | .local _ .vmem, ⟨7, _⟩ => ⟨S1x1x32, .f32⟩
  | _, _ => ⟨S16x16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_v0 : Ref sig .tc := ⟨.hbm, 15, rfl⟩
abbrev main_call0_cst : Ref sig .tc := ⟨.hbm, 16, rfl⟩
abbrev main_call0_v1 : Ref sig .tc := ⟨.hbm, 17, rfl⟩
abbrev main_call0_v2 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_cst : Ref sig .tc := ⟨.hbm, 27, rfl⟩
abbrev main_call1_v1 : Ref sig .tc := ⟨.hbm, 28, rfl⟩
abbrev main_call1_v2 : Ref sig .tc := ⟨.hbm, 29, rfl⟩
abbrev main_v16 : Ref sig .tc := ⟨.hbm, 30, rfl⟩
abbrev main_cst_0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S32x256_S256x32_1_0 : S32x256.Transposes [1, 0] S256x32
  shapeCasts_S32_S1x32 : S32.ShapeCasts S1x32
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  shapeCasts_S1x32_S1x1x32 : S1x32.ShapeCasts S1x1x32
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  bitsLt_bf16_f32 : FTy.bits .bf16 < FTy.bits .f32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  reduces_S4096x32_S4096 : S4096x32.Reduces [1] S4096
  shapeCasts_S4096_S4096x1 : S4096.ShapeCasts S4096x1
  broadcasts_S4096x1_S4096x32 : S4096x1.Broadcasts S4096x32
  reduces_S4096x32_S32 : S4096x32.Reduces [0] S32
  shapeCasts_S16x1x32_S16x32 : S16x1x32.ShapeCasts S16x32
  bcast_S16x32_S16x32x1_0_1 : S16x32.BroadcastsInDim S16x32x1 (![0, 1] : Fin 2 → Fin S16x32x1.rank)
  bcast_S32x256_S1x32x256_1_2 : S32x256.BroadcastsInDim S1x32x256 (![1, 2] : Fin 2 → Fin S1x32x256.rank)
  bcast_S16x32x1_S16x32x256_0_1_2 : S16x32x1.BroadcastsInDim S16x32x256 (![0, 1, 2] : Fin 3 → Fin S16x32x256.rank)
  bcast_S1x32x256_S16x32x256_0_1_2 : S1x32x256.BroadcastsInDim S16x32x256 (![0, 1, 2] : Fin 3 → Fin S16x32x256.rank)
  reducesTo_S16x32x256_S16x32_d2 : S16x32x256.ReducesTo [2] S16x32
  h_S_ : 0 < S_.numel
  bcast_S_S16x32x1 : S_.BroadcastsInDim S16x32x1 (![] : Fin 0 → Fin S16x32x1.rank)
  shapeCasts_S16x32x256_S16x8192 : S16x32x256.ShapeCasts S16x8192
  reducesTo_S16x8192_S16_d1 : S16x8192.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x8192_0_1 : S16x1.BroadcastsInDim S16x8192 (![0, 1] : Fin 2 → Fin S16x8192.rank)
  dot_S4096x256_S256x32_S4096x32_1_0_0_1_n_n_wf : DotDims.WF S4096x256 S256x32 S4096x32 [1] [0] [0] [1] [] []
  dot_S4096x32_S4096x256_S32x256_0_0_1_1_n_n_wf : DotDims.WF S4096x32 S4096x256 S32x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S16x16384x256.size a
  hwx0_0 : ∀ i : grid0.Coords, EltTy.bits .f32 = 32 ∨ (Rect.block (s := S16x16384x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S256x32.size a
  hwx0_1 : ∀ i : grid0.Coords, EltTy.bits .f32 = 32 ∨ (Rect.block (s := S256x32) S256x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x256.size a ≤ S16x32x256.size a
  hwx0_3 : ∀ i : grid0.Coords, EltTy.bits .f32 = 32 ∨ (Rect.block (s := S16x32x256) S1x32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S16x1x32.size a
  hwx0_4 : ∀ i : grid0.Coords, EltTy.bits .f32 = 32 ∨ (Rect.block (s := S16x1x32) S1x1x32.size (cc0_transform_4 i) (hinb0_4 i)).WholeWords (EltTy.packing .f32)

variable [Facts₀]

def dot_S4096x256_S256x32_S4096x32_1_0_0_1_n_n : DotDims S4096x256 S256x32 S4096x32 where
  lhsContracting := [1]
  rhsContracting := [0]
  lhsNonContracting := [0]
  rhsNonContracting := [1]
  lhsBatch := []
  rhsBatch := []
  wf := dot_S4096x256_S256x32_S4096x32_1_0_0_1_n_n_wf
def dot_S4096x32_S4096x256_S32x256_0_0_1_1_n_n : DotDims S4096x32 S4096x256 S32x256 where
  lhsContracting := [0]
  rhsContracting := [0]
  lhsNonContracting := [1]
  rhsNonContracting := [1]
  lhsBatch := []
  rhsBatch := []
  wf := dot_S4096x32_S4096x256_S32x256_0_0_1_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x32x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x1x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x16384x256 : Shape := ⟨3, ![16, 16384, 256]⟩
abbrev S32x256 : Shape := ⟨2, ![32, 256]⟩
abbrev S32 : Shape := ⟨1, ![32]⟩
abbrev S16x16384x32 : Shape := ⟨3, ![16, 16384, 32]⟩
abbrev S1x1x32 : Shape := ⟨3, ![1, 1, 32]⟩
abbrev S_ : Shape := ⟨0, ![]⟩
abbrev S16x16384 : Shape := ⟨2, ![16, 16384]⟩
abbrev S16x16384x1 : Shape := ⟨3, ![16, 16384, 1]⟩
abbrev S16x32 : Shape := ⟨2, ![16, 32]⟩
abbrev S16x32x256 : Shape := ⟨3, ![16, 32, 256]⟩
abbrev S16x32x1 : Shape := ⟨3, ![16, 32, 1]⟩
abbrev S1x32x256 : Shape := ⟨3, ![1, 32, 256]⟩
abbrev S16x8192 : Shape := ⟨2, ![16, 8192]⟩
abbrev S16 : Shape := ⟨1, ![16]⟩
abbrev S16x1 : Shape := ⟨2, ![16, 1]⟩

abbrev nBuf : Space → Nat
  | .hbm => 52
  | .vmem => 0
  | .smem => 0
  | _ => 0

abbrev bufTy : (tb : Table) → Fin (tcTables nBuf tb) → BufTy
  | .hbm, ⟨0, _⟩ => ⟨S16x16384x256, .f32⟩
  | .hbm, ⟨1, _⟩ => ⟨S32x256, .f32⟩
  | .hbm, ⟨2, _⟩ => ⟨S32, .f32⟩
  | .hbm, ⟨3, _⟩ => ⟨S32x256, .f32⟩
  | .hbm, ⟨4, _⟩ => ⟨S16x16384x32, .f32⟩
  | .hbm, ⟨5, _⟩ => ⟨S1x1x32, .f32⟩
  | .hbm, ⟨6, _⟩ => ⟨S16x16384x32, .f32⟩
  | .hbm, ⟨7, _⟩ => ⟨S16x16384x32, .f32⟩
  | .hbm, ⟨8, _⟩ => ⟨S_, .f32⟩
  | .hbm, ⟨9, _⟩ => ⟨S16x16384, .f32⟩
  | .hbm, ⟨10, _⟩ => ⟨S_, .f32⟩
  | .hbm, ⟨11, _⟩ => ⟨S16x16384, .f32⟩
  | .hbm, ⟨12, _⟩ => ⟨S16x16384, .f32⟩
  | .hbm, ⟨13, _⟩ => ⟨S16x16384x1, .f32⟩
  | .hbm, ⟨14, _⟩ => ⟨S16x16384x32, .f32⟩
  | .hbm, ⟨15, _⟩ => ⟨S16x16384x32, .f32⟩
  | .hbm, ⟨16, _⟩ => ⟨S16x16384x32, .f32⟩
  | .hbm, ⟨17, _⟩ => ⟨S_, .f32⟩
  | .hbm, ⟨18, _⟩ => ⟨S16x16384, .f32⟩
  | .hbm, ⟨19, _⟩ => ⟨S16x16384x1, .f32⟩
  | .hbm, ⟨20, _⟩ => ⟨S16x16384x32, .f32⟩
  | .hbm, ⟨21, _⟩ => ⟨S16x16384x32, .f32⟩
  | .hbm, ⟨22, _⟩ => ⟨S_, .f32⟩
  | .hbm, ⟨23, _⟩ => ⟨S16x32, .f32⟩
  | .hbm, ⟨24, _⟩ => ⟨S16x32x256, .f32⟩
  | .hbm, ⟨25, _⟩ => ⟨S16x32x1, .f32⟩
  | .hbm, ⟨26, _⟩ => ⟨S1x32x256, .f32⟩
  | .hbm, ⟨27, _⟩ => ⟨S16x32x256, .f32⟩
  | .hbm, ⟨28, _⟩ => ⟨S16x32x256, .f32⟩
  | .hbm, ⟨29, _⟩ => ⟨S16x32x256, .f32⟩
  | .hbm, ⟨30, _⟩ => ⟨S16x32x256, .f32⟩
  | .hbm, ⟨31, _⟩ => ⟨S16x32x256, .f32⟩
  | .hbm, ⟨32, _⟩ => ⟨S_, .f32⟩
  | .hbm, ⟨33, _⟩ => ⟨S16x32, .f32⟩
  | .hbm, ⟨34, _⟩ => ⟨S16x32x1, .f32⟩
  | .hbm, ⟨35, _⟩ => ⟨S16x32x1, .f32⟩
  | .hbm, ⟨36, _⟩ => ⟨S_, .f32⟩
  | .hbm, ⟨37, _⟩ => ⟨S16x32x1, .f32⟩
  | .hbm, ⟨38, _⟩ => ⟨S16x32x1, .f32⟩
  | .hbm, ⟨39, _⟩ => ⟨S16x32x256, .f32⟩
  | .hbm, ⟨40, _⟩ => ⟨S16x32x256, .f32⟩
  | .hbm, ⟨41, _⟩ => ⟨S16x8192, .f32⟩
  | .hbm, ⟨42, _⟩ => ⟨S16x8192, .f32⟩
  | .hbm, ⟨43, _⟩ => ⟨S_, .f32⟩
  | .hbm, ⟨44, _⟩ => ⟨S16, .f32⟩
  | .hbm, ⟨45, _⟩ => ⟨S16x1, .f32⟩
  | .hbm, ⟨46, _⟩ => ⟨S16x1, .f32⟩
  | .hbm, ⟨47, _⟩ => ⟨S_, .f32⟩
  | .hbm, ⟨48, _⟩ => ⟨S16x1, .f32⟩
  | .hbm, ⟨49, _⟩ => ⟨S16x1, .f32⟩
  | .hbm, ⟨50, _⟩ => ⟨S16x8192, .f32⟩
  | .hbm, ⟨51, _⟩ => ⟨S16x8192, .f32⟩
  | _, _ => ⟨S16x16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_cst : Ref sig .tc := ⟨.hbm, 32, rfl⟩
abbrev main_call0_v1 : Ref sig .tc := ⟨.hbm, 33, rfl⟩
abbrev main_call0_v2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S1x1x32_S16x16384x32_0_1_2 : S1x1x32.BroadcastsInDim S16x16384x32 (![0, 1, 2] : Fin 3 → Fin S16x16384x32.rank)
  reducesTo_S16x16384x32_S16x16384_d2 : S16x16384x32.ReducesTo [2] S16x16384
  h_S_ : 0 < S_.numel
  bcast_S_S16x16384 : S_.BroadcastsInDim S16x16384 (![] : Fin 0 → Fin S16x16384.rank)
  bcast_S16x16384_S16x16384x1_0_1 : S16x16384.BroadcastsInDim S16x16384x1 (![0, 1] : Fin 2 → Fin S16x16384x1.rank)
  bcast_S16x16384x1_S16x16384x32_0_1_2 : S16x16384x1.BroadcastsInDim S16x16384x32 (![0, 1, 2] : Fin 3 → Fin S16x16384x32.rank)
  reducesTo_S16x16384x32_S16x32_d1 : S16x16384x32.ReducesTo [1] S16x32
  bcast_S16x32_S16x32x1_0_1 : S16x32.BroadcastsInDim S16x32x1 (![0, 1] : Fin 2 → Fin S16x32x1.rank)
  bcast_S32x256_S1x32x256_1_2 : S32x256.BroadcastsInDim S1x32x256 (![1, 2] : Fin 2 → Fin S1x32x256.rank)
  bcast_S16x32x1_S16x32x256_0_1_2 : S16x32x1.BroadcastsInDim S16x32x256 (![0, 1, 2] : Fin 3 → Fin S16x32x256.rank)
  bcast_S1x32x256_S16x32x256_0_1_2 : S1x32x256.BroadcastsInDim S16x32x256 (![0, 1, 2] : Fin 3 → Fin S16x32x256.rank)
  reducesTo_S16x32x256_S16x32_d2 : S16x32x256.ReducesTo [2] S16x32
  bcast_S_S16x32x1 : S_.BroadcastsInDim S16x32x1 (![] : Fin 0 → Fin S16x32x1.rank)
  shapeCasts_S16x32x256_S16x8192 : S16x32x256.ShapeCasts S16x8192
  reducesTo_S16x8192_S16_d1 : S16x8192.ReducesTo [1] S16
  bcast_S16_S16x1_0 : S16.BroadcastsInDim S16x1 (![0] : Fin 1 → Fin S16x1.rank)
  bcast_S_S16x1 : S_.BroadcastsInDim S16x1 (![] : Fin 0 → Fin S16x1.rank)
  bcast_S16x1_S16x8192_0_1 : S16x1.BroadcastsInDim S16x8192 (![0, 1] : Fin 2 → Fin S16x8192.rank)
  dot_S16x16384x256_S32x256_S16x16384x32_2_1_01_0_n_n_wf : DotDims.WF S16x16384x256 S32x256 S16x16384x32 [2] [1] [0, 1] [0] [] []
  dot_S16x16384x32_S16x16384x256_S16x32x256_1_1_2_2_0_0_wf : DotDims.WF S16x16384x32 S16x16384x256 S16x32x256 [1] [1] [2] [2] [0] [0]

variable [Facts₀]

def dot_S16x16384x256_S32x256_S16x16384x32_2_1_01_0_n_n : DotDims S16x16384x256 S32x256 S16x16384x32 where
  lhsContracting := [2]
  rhsContracting := [1]
  lhsNonContracting := [0, 1]
  rhsNonContracting := [0]
  lhsBatch := []
  rhsBatch := []
  wf := dot_S16x16384x256_S32x256_S16x16384x32_2_1_01_0_n_n_wf
def dot_S16x16384x32_S16x16384x256_S16x32x256_1_1_2_2_0_0 : DotDims S16x16384x32 S16x16384x256 S16x32x256 where
  lhsContracting := [1]
  rhsContracting := [1]
  lhsNonContracting := [2]
  rhsNonContracting := [2]
  lhsBatch := [0]
  rhsBatch := [0]
  wf := dot_S16x16384x32_S16x16384x256_S16x32x256_1_1_2_2_0_0_wf

class Facts : Prop extends Facts₀ where

variable [Facts]
-- ==== Proof.LibColumnSums.lean ====
/-
  Column sums of squares, taken in row blocks and rescaled: general facts, at the ideal instance where floats are
  extended reals.

  * `sum_idx1`: a sum over the index set of a rank-1 shape is the sum over its one coordinate.
  * `multiReduction_add_col`: for a vector `x` of shape [R, D], the kernel's reduction with an add body along the
    FIRST axis is, at column `k`, the sum of the column's entries `x (r, k)`, `r : Fin R`.
  * `sum_blocks`: a sum over `N = B·R` rows is the sum over `B` blocks of the sums over the `R` rows of each block,
    row `R·t + r` being row `r` of block `t`.
  * `mul_self_nonneg`: a square of an extended real is nonnegative (also at the two infinities).
  * `sum_mul_of_nonneg`: a finite sum of NONNEGATIVE extended reals times `c` is the sum of the products. In the
    extended reals `(a + b)·c = a·c + b·c` fails in general (`a = ⊤`, `b = ⊥`), but it holds for `0 ≤ a, b`.
  * `sum_sq_scaled`: `∑ (xᵢ·c)·(xᵢ·c) = (∑ xᵢ·xᵢ)·(c·c)` for ANY extended reals `xᵢ` and `c`: scaling every entry by
    `c` before squaring and summing is scaling the sum of squares by `c²`.
-/
import Idealize.ShloMosaic.PureOps.Ideal.Laws
import Idealize.ShloMosaic.Lib.ValueIdx
import Mathlib.Data.EReal.Operations
import Mathlib.Logic.Equiv.Fin.Basic
import Mathlib.Algebra.BigOperators.Fin
import Mathlib.Data.Fintype.BigOperators

noncomputable section

open scoped BigOperators

namespace Cert.ColumnSums

open Idealize.ShloMosaic Idealize.ShloMosaic.ValueIdx

/-! ## Sums over a rank-1 index set -/

/-- A rank-1 index set is its one coordinate range. -/
def idxEquiv1 {n : Nat} : (⟨1, ![n]⟩ : Shape).Idx ≃ Fin n where
  toFun i := i 0
  invFun k := ix1 k
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-! ## A reduction along the first axis, read at a column -/

variable {φ : FTy} {R D : Nat}

/-- Column `k` with row `r` put back on the reduced first axis is the index (r, k). -/
theorem lift_col (h : (⟨2, ![R, D]⟩ : Shape).Reduces [0] (⟨1, ![D]⟩ : Shape)) (k : Fin D)
    (r : Fin ((⟨2, ![R, D]⟩ : Shape).size 0)) : h.lift (ix1 k) r = ix2 (⟨r.val, r.isLt⟩ : Fin R) k := by
  funext c; apply Fin.ext
  fin_cases c <;> rfl

/-- A reduction with an add body over the rows, at column `k`: the sum of that column's entries. -/
theorem multiReduction_add_col (x : FVec Ideal ⟨2, ![R, D]⟩ φ) (acc : BitVec φ.bits)
    (h : (⟨2, ![R, D]⟩ : Shape).Reduces [0] (⟨1, ![D]⟩ : Shape)) (hφ : FKind.Formats φ)
    (hacc : acc = FKind.add.neutral φ hφ) (k : Fin D) :
    multiReduction .add [0] ⟨1, ![D]⟩ x acc h hφ hacc (ix1 k) = ∑ r : Fin R, x (ix2 r k) := by
  rw [Ideal.multiReduction_add_single]
  exact Finset.sum_congr rfl fun r _ => congrArg x (lift_col h k r)

/-! ## A sum over rows taken block by block -/

/-- Row `r` of block `t` is a row of the whole: `R·t + r < B·R`. -/
theorem block_row_lt {B R : Nat} (t : Fin B) (r : Fin R) : R * t.val + r.val < B * R :=
  calc R * t.val + r.val < R * t.val + R := Nat.add_lt_add_left r.isLt _
    _ = R * (t.val + 1) := (Nat.mul_succ R t.val).symm
    _ ≤ R * B := Nat.mul_le_mul_left R t.isLt
    _ = B * R := Nat.mul_comm R B

/-- `N = B·R` rows as `B` blocks of `R` rows: the sum over the rows is the sum, over the blocks, of each
    block's sum; row `R·t + r` is row `r` of block `t`. -/
theorem sum_blocks {M : Type*} [AddCommMonoid M] (B R N : Nat) (hN : N = B * R) (f : Fin N → M) :
    ∑ i, f i = ∑ t : Fin B, ∑ r : Fin R, f ⟨R * t.val + r.val, hN ▸ block_row_lt t r⟩ := by
  subst hN
  rw [← Equiv.sum_comp finProdFinEquiv f, Fintype.sum_prod_type]
  refine Finset.sum_congr rfl fun t _ => Finset.sum_congr rfl fun r _ => congrArg f (Fin.ext ?_)
  show r.val + R * t.val = R * t.val + r.val
  exact Nat.add_comm _ _

/-! ## Nonnegative extended reals: distributivity over a finite sum -/

/-- A square is nonnegative, at the infinities too. -/
theorem mul_self_nonneg (x : EReal) : 0 ≤ x * x := by
  rcases le_total 0 x with h | h
  · exact EReal.mul_nonneg_iff.mpr (Or.inl ⟨h, h⟩)
  · exact EReal.mul_nonneg_iff.mpr (Or.inr ⟨h, h⟩)

/-- A finite sum of nonnegative extended reals, times `c`, is the sum of the products. -/
theorem sum_mul_of_nonneg {ι : Type*} (s : Finset ι) (a : ι → EReal) (ha : ∀ i ∈ s, 0 ≤ a i) (c : EReal) :
    ∑ i ∈ s, a i * c = (∑ i ∈ s, a i) * c := by
  classical
  induction s using Finset.induction_on with
  | empty => rw [Finset.sum_empty, Finset.sum_empty, zero_mul]
  | insert j s hj ih =>
    rw [Finset.sum_insert hj, Finset.sum_insert hj,
      ih (fun i hi => ha i (Finset.mem_insert_of_mem hi)),
      EReal.right_distrib_of_nonneg (ha j (Finset.mem_insert_self j s))
        (Finset.sum_nonneg fun i hi => ha i (Finset.mem_insert_of_mem hi))]

/-- Scaling every entry by `c` before squaring and summing is scaling the sum of squares by `c·c`. -/
theorem sum_sq_scaled {ι : Type*} [Fintype ι] (x : ι → EReal) (c : EReal) :
    ∑ i, (x i * c) * (x i * c) = (∑ i, x i * x i) * (c * c) := by
  rw [← sum_mul_of_nonneg Finset.univ (fun i => x i * x i) (fun i _ => mul_self_nonneg (x i)) (c * c)]
  exact Finset.sum_congr rfl fun i _ => mul_mul_mul_comm (x i) c (x i) c

end Cert.ColumnSums

end
-- ==== Proof.Softmax.lean ====
/-
  The row-wise soft assignment and its two aggregates, as plain functions on the extended reals.

  For one row x of 256 features, a weight matrix w (32 × 256) and a bias (32 entries):
    logit k     = (∑ d, x d · w k d) + bias k
    rowMax      = max (-∞) (max over k of logit k, taken from -∞)
    soft k      = exp (logit k - rowMax) / ∑ k', exp (logit k' - rowMax)
  and for a batch entry bb of an array x of shape [16, 16384, 256]:
    A bb n k      = soft k of row (bb, n)
    aggV bb k d   = ∑ n, A bb n k · x (bb, n, d)
    aggS bb k     = ∑ n, A bb n k.
  A sum over the 16384 rows taken as 4 tiles of 4096 rows is the same sum (addition of extended reals is commutative
  and associative), and a running sum that restarts at every fourth step ends each group of four at the group's sum.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Basic
import Mathlib.Data.Fintype.BigOperators
import proofs.«180966_j15418932592835_1_alg».proof.Proof.LibColumnSums

noncomputable section

open scoped BigOperators

namespace Cert.Vlad

open Idealize.ShloMosaic Idealize.ShloMosaic.ValueIdx

/-- The f32 pattern of minus infinity, read as an extended real. -/
abbrev negInf : EReal := Ideal.ofBits .f32 0xFF800000#32

/-- One row's 32 logits: the row's inner product with each weight row, plus the bias. -/
def rlogit (xr : Fin 256 → EReal) (w : Fin 32 → Fin 256 → EReal) (bias : Fin 32 → EReal) (k : Fin 32) : EReal :=
  (∑ d : Fin 256, xr d * w k d) + bias k

/-- The largest of 32 numbers, taken from minus infinity (and joined with minus infinity once more). -/
def rmax (L : Fin 32 → EReal) : EReal := max negInf (Finset.univ.fold max negInf L)

/-- The softmax of 32 numbers, shifted by their maximum. -/
def rsoft (L : Fin 32 → EReal) (k : Fin 32) : EReal :=
  Ideal.div (Ideal.exp (L k - rmax L)) (∑ k' : Fin 32, Ideal.exp (L k' - rmax L))

/-- The soft assignment of row (bb, n) of x to cluster k. -/
def A (x : (⟨3, ![16, 16384, 256]⟩ : Shape).Idx → EReal) (w : (⟨2, ![32, 256]⟩ : Shape).Idx → EReal)
    (b : (⟨1, ![32]⟩ : Shape).Idx → EReal) (bb : Fin 16) (n : Fin 16384) (k : Fin 32) : EReal :=
  rsoft (rlogit (fun d => x (ix3 bb n d)) (fun k d => w (ix2 k d)) (fun k => b (ix1 k))) k

/-- The assignment-weighted sum of the rows. -/
def aggV (x : (⟨3, ![16, 16384, 256]⟩ : Shape).Idx → EReal) (w : (⟨2, ![32, 256]⟩ : Shape).Idx → EReal)
    (b : (⟨1, ![32]⟩ : Shape).Idx → EReal) (bb : Fin 16) (k : Fin 32) (d : Fin 256) : EReal :=
  ∑ n : Fin 16384, A x w b bb n k * x (ix3 bb n d)

/-- The total assignment of each cluster. -/
def aggS (x : (⟨3, ![16, 16384, 256]⟩ : Shape).Idx → EReal) (w : (⟨2, ![32, 256]⟩ : Shape).Idx → EReal)
    (b : (⟨1, ![32]⟩ : Shape).Idx → EReal) (bb : Fin 16) (k : Fin 32) : EReal :=
  ∑ n : Fin 16384, A x w b bb n k

/-- Row r of tile j is row 4096·j + r of the 16384. -/
theorem tile_row_lt (j : Fin 4) (r : Fin 4096) : 4096 * j.val + r.val < 16384 := by
  have := j.isLt; have := r.isLt; omega

/-- 16384 rows as 4 tiles of 4096. -/
theorem sum_tiles {M : Type*} [AddCommMonoid M] (f : Fin 16384 → M) :
    ∑ n, f n = ∑ j : Fin 4, ∑ r : Fin 4096, f ⟨4096 * j.val + r.val, tile_row_lt j r⟩ :=
  Cert.ColumnSums.sum_blocks 4 4096 16384 (by norm_num) f

/-- The running sum within the current group of four steps: after step n, the sum of g over the steps of n's
    group up to n. -/
def running {M : Type*} [AddCommMonoid M] (g : ℕ → M) (n : ℕ) : M :=
  ∑ j ∈ Finset.range (n % 4 + 1), g (n - n % 4 + j)

/-- At the first step of a group the running sum is that step's term. -/
theorem running_first {M : Type*} [AddCommMonoid M] (g : ℕ → M) (n : ℕ) (h : n % 4 = 0) : running g n = g n := by
  unfold running
  rw [h, Finset.sum_range_one]
  congr 1

/-- At a later step it is the previous running sum plus that step's term. -/
theorem running_next {M : Type*} [AddCommMonoid M] (g : ℕ → M) (n : ℕ) (h : ¬ n % 4 = 0) :
    running g n = running g (n - 1) + g n := by
  unfold running
  have h1 : (n - 1) % 4 + 1 = n % 4 := by omega
  have h2 : n - 1 - (n - 1) % 4 = n - n % 4 := by omega
  rw [Finset.sum_range_succ, h1, h2]
  congr 2
  omega

/-- At the last step of group q it is the sum over the group's four steps. -/
theorem running_last {M : Type*} [AddCommMonoid M] (g : ℕ → M) (q : ℕ) :
    running g (4 * q + 3) = ∑ j : Fin 4, g (4 * q + j.val) := by
  unfold running
  have h1 : (4 * q + 3) % 4 + 1 = 4 := by omega
  have h2 : 4 * q + 3 - (4 * q + 3) % 4 = 4 * q := by omega
  rw [h1, h2, Finset.sum_range]

end Cert.Vlad

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.KernelTile.lean ====
/-
  The kernel body's arithmetic on one tile of 4096 rows, read at an index over the extended reals. The first
  contraction pairs row r of the tile with column k of the transposed weights: with the bias this is the logit of
  (r, k). The lane reductions give each row's maximum and each row's sum of shifted exponentials, so the quotient is the
  row's softmax. The second contraction runs over the 4096 rows: entry (k, d) is ∑ r, soft (r, k) · x (r, d), added to
  what the accumulator held; the column sums ∑ r, soft (r, k) are added to the second accumulator. Rounding to bf16 is
  the identity on extended reals, a product into a zero accumulator is the plain sum, and the two reset blocks are zero.
-/
import proofs.«180966_j15418932592835_1_alg».proof.Proof.Gen.KernelIdeal.Skeleton
import proofs.«180966_j15418932592835_1_alg».proof.Proof.Softmax
import proofs.«180966_j15418932592835_1_alg».proof.Proof.LibRowReduce
import proofs.«180966_j15418932592835_1_alg».proof.Proof.LibColumnSums
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.Vlad

/-! ## The two contractions' operand indices, axis by axis -/

theorem lhs_logit_0 (i : S4096x32.Idx) (q : dot_S4096x256_S256x32_S4096x32_1_0_0_1_n_n.contr.Idx) :
    (dot_S4096x256_S256x32_S4096x32_1_0_0_1_n_n.lhsIdx i q 0).val = (i 0).val := by
  unfold DotDims.lhsIdx
  rw [dif_neg (show ¬(0 : Fin S4096x256.rank) ∈ dot_S4096x256_S256x32_S4096x32_1_0_0_1_n_n.lhsBatch by decide), dif_pos (show (0 : Fin S4096x256.rank) ∈ dot_S4096x256_S256x32_S4096x32_1_0_0_1_n_n.lhsNonContracting by decide)]
  rfl
theorem lhs_logit_1 (i : S4096x32.Idx) (q : dot_S4096x256_S256x32_S4096x32_1_0_0_1_n_n.contr.Idx) :
    (dot_S4096x256_S256x32_S4096x32_1_0_0_1_n_n.lhsIdx i q 1).val = (q ⟨0, by decide⟩).val :=
  dot_S4096x256_S256x32_S4096x32_1_0_0_1_n_n.lhsIdx_val_of_single rfl i q
theorem rhs_logit_0 (i : S4096x32.Idx) (q : dot_S4096x256_S256x32_S4096x32_1_0_0_1_n_n.contr.Idx) :
    (dot_S4096x256_S256x32_S4096x32_1_0_0_1_n_n.rhsIdx i q 0).val = (q ⟨0, by decide⟩).val :=
  dot_S4096x256_S256x32_S4096x32_1_0_0_1_n_n.rhsIdx_val_of_single rfl i q
theorem rhs_logit_1 (i : S4096x32.Idx) (q : dot_S4096x256_S256x32_S4096x32_1_0_0_1_n_n.contr.Idx) :
    (dot_S4096x256_S256x32_S4096x32_1_0_0_1_n_n.rhsIdx i q 1).val = (i 1).val := by
  unfold DotDims.rhsIdx
  rw [dif_neg (show ¬(1 : Fin S256x32.rank) ∈ dot_S4096x256_S256x32_S4096x32_1_0_0_1_n_n.rhsBatch by decide), dif_pos (show (1 : Fin S256x32.rank) ∈ dot_S4096x256_S256x32_S4096x32_1_0_0_1_n_n.rhsNonContracting by decide)]
  rfl

theorem lhs_agg_0 (i : S32x256.Idx) (q : dot_S4096x32_S4096x256_S32x256_0_0_1_1_n_n.contr.Idx) :
    (dot_S4096x32_S4096x256_S32x256_0_0_1_1_n_n.lhsIdx i q 0).val = (q ⟨0, by decide⟩).val :=
  dot_S4096x32_S4096x256_S32x256_0_0_1_1_n_n.lhsIdx_val_of_single rfl i q
theorem lhs_agg_1 (i : S32x256.Idx) (q : dot_S4096x32_S4096x256_S32x256_0_0_1_1_n_n.contr.Idx) :
    (dot_S4096x32_S4096x256_S32x256_0_0_1_1_n_n.lhsIdx i q 1).val = (i 0).val := by
  unfold DotDims.lhsIdx
  rw [dif_neg (show ¬(1 : Fin S4096x32.rank) ∈ dot_S4096x32_S4096x256_S32x256_0_0_1_1_n_n.lhsBatch by decide), dif_pos (show (1 : Fin S4096x32.rank) ∈ dot_S4096x32_S4096x256_S32x256_0_0_1_1_n_n.lhsNonContracting by decide)]
  rfl
theorem rhs_agg_0 (i : S32x256.Idx) (q : dot_S4096x32_S4096x256_S32x256_0_0_1_1_n_n.contr.Idx) :
    (dot_S4096x32_S4096x256_S32x256_0_0_1_1_n_n.rhsIdx i q 0).val = (q ⟨0, by decide⟩).val :=
  dot_S4096x32_S4096x256_S32x256_0_0_1_1_n_n.rhsIdx_val_of_single rfl i q
theorem rhs_agg_1 (i : S32x256.Idx) (q : dot_S4096x32_S4096x256_S32x256_0_0_1_1_n_n.contr.Idx) :
    (dot_S4096x32_S4096x256_S32x256_0_0_1_1_n_n.rhsIdx i q 1).val = (i 1).val := by
  unfold DotDims.rhsIdx
  rw [dif_neg (show ¬(1 : Fin S4096x256.rank) ∈ dot_S4096x32_S4096x256_S32x256_0_0_1_1_n_n.rhsBatch by decide), dif_pos (show (1 : Fin S4096x256.rank) ∈ dot_S4096x32_S4096x256_S32x256_0_0_1_1_n_n.rhsNonContracting by decide)]
  rfl

/-! ## The kernel's non-pointwise operations, each read at an index -/

/-- The loaded block as a matrix: its leading unit axis dropped. -/
theorem pay4_apply (xb : Vec Ideal S1x4096x256 .f32) (r : Fin 4096) (d : Fin 256) :
    k0_pay4 (F := Ideal) xb (ix2 r d) = xb (ix3 (0 : Fin 1) r d) := by
  unfold k0_pay4
  show shapeCast S4096x256 xb shapeCasts_S1x4096x256_S4096x256 (ix2 r d) = _
  refine shapeCast_apply xb _ (ix2 r d) (ix3 (0 : Fin 1) r d) ?_
  rw [Shape.rowMajor_val_two, Shape.rowMajor_val_three]
  show (0 * 4096 + r.val) * 256 + d.val = r.val * 256 + d.val
  omega

/-- The first contraction: row r of the block against column k of the weights. -/
theorem matmul_logit_apply (a : FVec Ideal S4096x256 .bf16) (w : FVec Ideal S256x32 .bf16) (r : Fin 4096) (k : Fin 32) :
    matmul (F := Ideal) dot_S4096x256_S256x32_S4096x32_1_0_0_1_n_n none a w (constant (F := Ideal) S4096x32 .f32 0x00000000#32) (ix2 r k)
      = ∑ d : Fin 256, a (ix2 r d) * w (ix2 d k) := by
  show FloatOps.matmul dot_S4096x256_S256x32_S4096x32_1_0_0_1_n_n none a w (constant S4096x32 .f32 0x00000000#32) (ix2 r k) = _
  rw [Ideal.matmul_constant_zero_apply, ← Equiv.sum_comp (ValueIdx.contrEquiv1 dot_S4096x256_S256x32_S4096x32_1_0_0_1_n_n 256 rfl rfl).symm]
  refine Finset.sum_congr rfl fun d _ => ?_
  have hk := ValueIdx.contrEquiv1_symm_val dot_S4096x256_S256x32_S4096x32_1_0_0_1_n_n 256 rfl rfl d
  have el : dot_S4096x256_S256x32_S4096x32_1_0_0_1_n_n.lhsIdx (ix2 r k) ((ValueIdx.contrEquiv1 dot_S4096x256_S256x32_S4096x32_1_0_0_1_n_n 256 rfl rfl).symm d) = ix2 r d := funext fun a => Fin.ext (by
    match a with
    | ⟨0, _⟩ => exact lhs_logit_0 _ _
    | ⟨1, _⟩ => exact (lhs_logit_1 _ _).trans hk)
  have er : dot_S4096x256_S256x32_S4096x32_1_0_0_1_n_n.rhsIdx (ix2 r k) ((ValueIdx.contrEquiv1 dot_S4096x256_S256x32_S4096x32_1_0_0_1_n_n 256 rfl rfl).symm d) = ix2 d k := funext fun a => Fin.ext (by
    match a with
    | ⟨0, _⟩ => exact (rhs_logit_0 _ _).trans hk
    | ⟨1, _⟩ => exact rhs_logit_1 _ _)
  rw [el, er]

/-- The second contraction: column k of the assignment against column d of the block, over the 4096 rows. -/
theorem matmul_agg_apply (p : FVec Ideal S4096x32 .bf16) (a : FVec Ideal S4096x256 .bf16) (k : Fin 32) (d : Fin 256) :
    matmul (F := Ideal) dot_S4096x32_S4096x256_S32x256_0_0_1_1_n_n none p a (constant (F := Ideal) S32x256 .f32 0x00000000#32) (ix2 k d)
      = ∑ r : Fin 4096, p (ix2 r k) * a (ix2 r d) := by
  show FloatOps.matmul dot_S4096x32_S4096x256_S32x256_0_0_1_1_n_n none p a (constant S32x256 .f32 0x00000000#32) (ix2 k d) = _
  rw [Ideal.matmul_constant_zero_apply, ← Equiv.sum_comp (ValueIdx.contrEquiv1 dot_S4096x32_S4096x256_S32x256_0_0_1_1_n_n 4096 rfl rfl).symm]
  refine Finset.sum_congr rfl fun r _ => ?_
  have hk := ValueIdx.contrEquiv1_symm_val dot_S4096x32_S4096x256_S32x256_0_0_1_1_n_n 4096 rfl rfl r
  have el : dot_S4096x32_S4096x256_S32x256_0_0_1_1_n_n.lhsIdx (ix2 k d) ((ValueIdx.contrEquiv1 dot_S4096x32_S4096x256_S32x256_0_0_1_1_n_n 4096 rfl rfl).symm r) = ix2 r k := funext fun a => Fin.ext (by
    match a with
    | ⟨0, _⟩ => exact (lhs_agg_0 _ _).trans hk
    | ⟨1, _⟩ => exact lhs_agg_1 _ _)
  have er : dot_S4096x32_S4096x256_S32x256_0_0_1_1_n_n.rhsIdx (ix2 k d) ((ValueIdx.contrEquiv1 dot_S4096x32_S4096x256_S32x256_0_0_1_1_n_n 4096 rfl rfl).symm r) = ix2 r d := funext fun a => Fin.ext (by
    match a with
    | ⟨0, _⟩ => exact (rhs_agg_0 _ _).trans hk
    | ⟨1, _⟩ => exact rhs_agg_1 _ _)
  rw [el, er]

/-- The bias row broadcast down the 4096 rows. -/
theorem bias_bcast_apply (v : FVec Ideal S1x32 .f32) (r : Fin 4096) (k : Fin 32) :
    broadcastTo S4096x32 v broadcasts_S1x32_S4096x32 (ix2 r k) = v (ix2 (0 : Fin 1) k) :=
  broadcastTo_apply v broadcasts_S1x32_S4096x32 (ix2 r k) (ix2 (0 : Fin 1) k) (fun a => match a with
    | ⟨0, _⟩ => by show (0 : Nat) = if (1 : Nat) = 1 then 0 else r.val; rw [if_pos rfl]
    | ⟨1, _⟩ => by show k.val = if (32 : Nat) = 1 then 0 else k.val; rw [if_neg (by decide)])

/-- A per-row value set as a column and broadcast along the 32 lanes. -/
theorem row_bcast_apply (v : FVec Ideal S4096 .f32) (r : Fin 4096) (k : Fin 32) :
    broadcastTo S4096x32 (shapeCast S4096x1 v shapeCasts_S4096_S4096x1) broadcasts_S4096x1_S4096x32 (ix2 r k) = v (ix1 r) := by
  rw [broadcastTo_apply (shapeCast S4096x1 v shapeCasts_S4096_S4096x1) broadcasts_S4096x1_S4096x32 (ix2 r k) (ix2 r (0 : Fin 1)) (fun a => match a with
    | ⟨0, _⟩ => by show r.val = if (4096 : Nat) = 1 then 0 else r.val; rw [if_neg (by decide)]
    | ⟨1, _⟩ => by show (0 : Nat) = if (1 : Nat) = 1 then 0 else k.val; rw [if_pos rfl])]
  refine shapeCast_apply v _ (ix2 r (0 : Fin 1)) (ix1 r) ?_
  rw [Shape.rowMajor_val_one, Shape.rowMajor_val_two]
  show r.val = r.val * 1 + 0
  omega

/-- The row maximum: the lane reduction from minus infinity, joined with minus infinity. -/
theorem row_max_apply (y : FVec Ideal S4096x32 .f32) (hφ : FKind.Formats .f32)
    (hacc : 0xFF800000#32 = 0xFF800000#32) (r : Fin 4096) :
    maximumf (broadcast S4096 (Scalar.ofBits (F := Ideal) .f32 0xFF800000#32))
        (multiReduction (F := Ideal) .maximumf [1] S4096 y 0xFF800000#32 reduces_S4096x32_S4096 hφ hacc) (ix1 r)
      = rmax (fun k => y (ix2 r k)) :=
  congrArg (max (Ideal.ofBits .f32 0xFF800000#32))
    (Idealize.ShloMosaic.RowReduce.multiReduction_maximumf_row y _ _ hφ hacc r)

/-- The row sum: the lane reduction with an add body. -/
theorem row_sum_apply (e : FVec Ideal S4096x32 .f32) (hφ : FKind.Formats .f32)
    (hacc : 0x00000000#32 = 0x00000000#32) (r : Fin 4096) :
    multiReduction (F := Ideal) .add [1] S4096 e 0x00000000#32 reduces_S4096x32_S4096 hφ hacc (ix1 r)
      = ∑ k : Fin 32, e (ix2 r k) :=
  Idealize.ShloMosaic.RowReduce.multiReduction_add_row e _ _ hφ hacc r

/-! ## The soft assignment -/

/-- The logits of the 4096 rows: the block times the weights, plus the bias on every row. -/
def logits (xb : Vec Ideal S1x4096x256 .f32) (wt : Vec Ideal S256x32 .f32) (bi : Vec Ideal S1x32 .f32) : FVec Ideal S4096x32 .f32 :=
  addf (matmul dot_S4096x256_S256x32_S4096x32_1_0_0_1_n_n none (k0_pay4 xb)
      (truncf .bf16 (shapeCast S256x32 wt shapeCasts_S256x32_S256x32) bitsLt_bf16_f32) (constant S4096x32 .f32 0x00000000#32))
    (broadcastTo S4096x32 (shapeCast S1x32 bi shapeCasts_S1x32_S1x32) broadcasts_S1x32_S4096x32)

/-- The row-wise softmax of a 4096 × 32 vector, as the kernel computes it. -/
def softRows (v13 : FVec Ideal S4096x32 .f32) : FVec Ideal S4096x32 .f32 :=
  have v14 : FVec Ideal S4096 .f32 := multiReduction .maximumf [1] S4096 v13 0xFF800000#32 reduces_S4096x32_S4096 (.inl rfl) rfl
  have cst_8 : Ideal .f32 := Scalar.ofBits .f32 0xFF800000#32
  have v15 : FVec Ideal S4096 .f32 := broadcast S4096 cst_8
  have v16 : FVec Ideal S4096 .f32 := maximumf v15 v14
  have v17 : FVec Ideal S4096x1 .f32 := shapeCast S4096x1 v16 shapeCasts_S4096_S4096x1
  have v18 : FVec Ideal S4096x32 .f32 := broadcastTo S4096x32 v17 broadcasts_S4096x1_S4096x32
  have v19 : FVec Ideal S4096x32 .f32 := subf v13 v18
  have v20 : FVec Ideal S4096x32 .f32 := exp v19
  have v21 : FVec Ideal S4096 .f32 := multiReduction .add [1] S4096 v20 0x00000000#32 reduces_S4096x32_S4096 (.inl rfl) rfl
  have v22 : FVec Ideal S4096x1 .f32 := shapeCast S4096x1 v21 shapeCasts_S4096_S4096x1
  have v23 : FVec Ideal S4096x32 .f32 := broadcastTo S4096x32 v22 broadcasts_S4096x1_S4096x32
  have v24 : FVec Ideal S4096x32 .f32 := divf v20 v23
  v24

/-- The kernel's quotient is the row-wise softmax of its logits. -/
theorem pay5_eq (xb : Vec Ideal S1x4096x256 .f32) (wt : Vec Ideal S256x32 .f32) (bi : Vec Ideal S1x32 .f32) :
    k0_pay5 (F := Ideal) xb wt bi = softRows (logits xb wt bi) := rfl

/-- The logits at row r, lane k. -/
theorem logits_apply (xb : Vec Ideal S1x4096x256 .f32) (wt : Vec Ideal S256x32 .f32) (bi : Vec Ideal S1x32 .f32)
    (r : Fin 4096) (k : Fin 32) :
    logits xb wt bi (ix2 r k)
      = rlogit (fun d => xb (ix3 (0 : Fin 1) r d)) (fun k d => wt (ix2 d k)) (fun k => bi (ix2 (0 : Fin 1) k)) k := by
  unfold logits rlogit
  show matmul (F := Ideal) dot_S4096x256_S256x32_S4096x32_1_0_0_1_n_n none (k0_pay4 xb)
      (truncf .bf16 (shapeCast S256x32 wt shapeCasts_S256x32_S256x32) bitsLt_bf16_f32) (constant (F := Ideal) S4096x32 .f32 0x00000000#32) (ix2 r k)
    + broadcastTo S4096x32 (shapeCast S1x32 bi shapeCasts_S1x32_S1x32) broadcasts_S1x32_S4096x32 (ix2 r k) = _
  rw [matmul_logit_apply, bias_bcast_apply, shapeCast_self, shapeCast_self]
  refine congrArg (· + bi (ix2 (0 : Fin 1) k)) (Finset.sum_congr rfl fun d _ => ?_)
  rw [pay4_apply]
  rfl

/-- The row-wise softmax at row r, lane k. -/
theorem softRows_apply (y : FVec Ideal S4096x32 .f32) (r : Fin 4096) (k : Fin 32) :
    softRows y (ix2 r k) = rsoft (fun k => y (ix2 r k)) k := by
  unfold softRows rsoft
  simp only [divf, exp, subf, Ideal.divf_def, Ideal.exp_def, Ideal.subf_def, row_bcast_apply]
  erw [row_sum_apply]
  simp only [exp, subf, Ideal.exp_def, Ideal.subf_def, row_bcast_apply]
  erw [row_max_apply]

/-! ## Unit axes added and dropped -/

theorem drop_unit_S32x256_apply {α : Type} (v : S1x32x256.Idx → α) (k : Fin 32) (d : Fin 256) :
    shapeCast S32x256 v shapeCasts_S1x32x256_S32x256 (ix2 k d) = v (ix3 (0 : Fin 1) k d) := by
  refine shapeCast_apply v _ (ix2 k d) (ix3 (0 : Fin 1) k d) ?_
  rw [Shape.rowMajor_val_two, Shape.rowMajor_val_three]
  show (0 * 32 + k.val) * 256 + d.val = k.val * 256 + d.val
  omega

theorem add_unit_S32x256_apply {α : Type} (v : S32x256.Idx → α) (k : Fin 32) (d : Fin 256) :
    shapeCast S1x32x256 v shapeCasts_S32x256_S1x32x256 (ix3 (0 : Fin 1) k d) = v (ix2 k d) := by
  refine shapeCast_apply v _ (ix3 (0 : Fin 1) k d) (ix2 k d) ?_
  rw [Shape.rowMajor_val_two, Shape.rowMajor_val_three]
  show k.val * 256 + d.val = (0 * 32 + k.val) * 256 + d.val
  omega

theorem drop_unit_S1x32_apply {α : Type} (v : S1x1x32.Idx → α) (k : Fin 32) :
    shapeCast S1x32 v shapeCasts_S1x1x32_S1x32 (ix2 (0 : Fin 1) k) = v (ix3 (0 : Fin 1) (0 : Fin 1) k) := by
  refine shapeCast_apply v _ (ix2 (0 : Fin 1) k) (ix3 (0 : Fin 1) (0 : Fin 1) k) ?_
  rw [Shape.rowMajor_val_two, Shape.rowMajor_val_three]
  show (0 * 1 + 0) * 32 + k.val = 0 * 32 + k.val
  omega

theorem add_unit_S1x32_apply {α : Type} (v : S1x32.Idx → α) (k : Fin 32) :
    shapeCast S1x1x32 v shapeCasts_S1x32_S1x1x32 (ix3 (0 : Fin 1) (0 : Fin 1) k) = v (ix2 (0 : Fin 1) k) := by
  refine shapeCast_apply v _ (ix3 (0 : Fin 1) (0 : Fin 1) k) (ix2 (0 : Fin 1) k) ?_
  rw [Shape.rowMajor_val_two, Shape.rowMajor_val_three]
  show 0 * 32 + k.val = (0 * 1 + 0) * 32 + k.val
  omega

theorem add_unit_S32_apply {α : Type} (v : S32.Idx → α) (k : Fin 32) :
    shapeCast S1x32 v shapeCasts_S32_S1x32 (ix2 (0 : Fin 1) k) = v (ix1 k) := by
  refine shapeCast_apply v _ (ix2 (0 : Fin 1) k) (ix1 k) ?_
  rw [Shape.rowMajor_val_one, Shape.rowMajor_val_two]
  show k.val = 0 * 32 + k.val
  omega

/-- The column sums: the reduction with an add body along the rows. -/
theorem col_sum_apply (p : FVec Ideal S4096x32 .f32) (hφ : FKind.Formats .f32)
    (hacc : 0x00000000#32 = 0x00000000#32) (k : Fin 32) :
    multiReduction (F := Ideal) .add [0] S32 p 0x00000000#32 reduces_S4096x32_S32 hφ hacc (ix1 k)
      = ∑ r : Fin 4096, p (ix2 r k) :=
  Cert.ColumnSums.multiReduction_add_col p _ _ hφ hacc k

/-! ## The payloads at an index -/

theorem pay5_apply (xb : Vec Ideal S1x4096x256 .f32) (wt : Vec Ideal S256x32 .f32) (bi : Vec Ideal S1x32 .f32)
    (r : Fin 4096) (k : Fin 32) :
    k0_pay5 (F := Ideal) xb wt bi (ix2 r k)
      = rsoft (rlogit (fun d => xb (ix3 (0 : Fin 1) r d)) (fun k d => wt (ix2 d k)) (fun k => bi (ix2 (0 : Fin 1) k))) k := by
  rw [pay5_eq, softRows_apply]
  exact congrArg (fun L => rsoft L k) (funext fun k' => logits_apply xb wt bi r k')

theorem pay7_apply (xb : Vec Ideal S1x4096x256 .f32) (wt : Vec Ideal S256x32 .f32) (bi : Vec Ideal S1x32 .f32)
    (xo : Vec Ideal S1x32x256 .f32) (k : Fin 32) (d : Fin 256) :
    k0_pay7 (F := Ideal) xb wt bi xo (ix3 (0 : Fin 1) k d)
      = xo (ix3 (0 : Fin 1) k d) + ∑ r : Fin 4096, k0_pay5 (F := Ideal) xb wt bi (ix2 r k) * xb (ix3 (0 : Fin 1) r d) := by
  unfold k0_pay7
  rw [add_unit_S32x256_apply]
  show shapeCast S32x256 xo shapeCasts_S1x32x256_S32x256 (ix2 k d)
    + matmul (F := Ideal) dot_S4096x32_S4096x256_S32x256_0_0_1_1_n_n none
        (truncf .bf16 (k0_pay5 (F := Ideal) xb wt bi) bitsLt_bf16_f32) (k0_pay4 xb) (constant (F := Ideal) S32x256 .f32 0x00000000#32) (ix2 k d) = _
  rw [drop_unit_S32x256_apply, matmul_agg_apply]
  refine congrArg (xo (ix3 (0 : Fin 1) k d) + ·) (Finset.sum_congr rfl fun r _ => ?_)
  rw [pay4_apply]
  rfl

theorem pay16_apply (xb : Vec Ideal S1x4096x256 .f32) (wt : Vec Ideal S256x32 .f32) (bi : Vec Ideal S1x32 .f32)
    (xo : Vec Ideal S1x1x32 .f32) (k : Fin 32) :
    k0_pay1 (F := Ideal) (k0_pay6 (F := Ideal) xb wt bi) xo (ix3 (0 : Fin 1) (0 : Fin 1) k)
      = xo (ix3 (0 : Fin 1) (0 : Fin 1) k) + ∑ r : Fin 4096, k0_pay5 (F := Ideal) xb wt bi (ix2 r k) := by
  unfold k0_pay1 k0_pay6
  rw [add_unit_S1x32_apply]
  show shapeCast S1x32 xo shapeCasts_S1x1x32_S1x32 (ix2 (0 : Fin 1) k)
    + shapeCast S1x32 (multiReduction (F := Ideal) .add [0] S32 (k0_pay5 (F := Ideal) xb wt bi) 0x00000000#32 reduces_S4096x32_S32 _ _)
        shapeCasts_S32_S1x32 (ix2 (0 : Fin 1) k) = _
  rw [drop_unit_S1x32_apply, add_unit_S32_apply]
  erw [col_sum_apply]

theorem pay2_apply (i : S1x32x256.Idx) : k0_pay2 (F := Ideal) i = 0 := by
  unfold k0_pay2
  show Ideal.ofBits .f32 0x00000000#32 = 0
  exact Ideal.ofBits_zero_f32

theorem pay3_apply (i : S1x1x32.Idx) : k0_pay3 (F := Ideal) i = 0 := by
  unfold k0_pay3
  show Ideal.ofBits .f32 0x00000000#32 = 0
  exact Ideal.ofBits_zero_f32

end Cert.KernelIdeal.Tile

end
-- ==== Proof.KernelPieces.lean ====
/-
  What the kernel body leaves in its two accumulators, case by case. At the first tile of a batch entry the body first
  stores zero blocks, so what it reads back is zero and it leaves 0 + (this tile's contribution); at a later tile it
  reads what the tile before left and adds this tile's contribution. Each accumulator is written by whole-block stores,
  so its final contents are the last store's value, whose loads are the blocks the buffers held.
-/
import proofs.«180966_j15418932592835_1_alg».proof.Proof.Gen.KernelIdeal.Frame
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The all-zero offset triple is the constant-zero function. -/
theorem hz3 : (![0, 0, 0] : Fin 3 → Nat) = fun _ => 0 := funext fun a => by fin_cases a <;> rfl

/-- The all-zero offset pair is the constant-zero function. -/
theorem hz2 : (![0, 0] : Fin 2 → Nat) = fun _ => 0 := funext fun a => by fin_cases a <;> rfl

/-- Case A, output 3: the zero block is stored, read back whole, and the covering update of it by the three input
    blocks is what the buffer ends with. -/
theorem out_A_3 (c : Dev nD) (i : grid0.Coords) (arg2 : Memref sig .tc .vmem S1x4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S1x32x256 .f32) (harg5 : arg5.IsWhole) (arg6 : Memref sig .tc .vmem S1x1x32 .f32) (harg6 : arg6.IsWhole) (hc0 : cond0_0 i)
    (x0 : Vec F S1x4096x256 .f32) (x1 : Vec F S256x32 .f32) (x2 : Vec F S1x32 .f32) :
    out0_A_3 c i arg2 harg2 arg3 harg3 arg4 harg4 arg5 harg5 arg6 harg6 hc0 x0 x1 x2 = k0_pay7 x0 x1 x2 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x32x256) hz3, View.readCov_unit_zero (S := S1x32x256) _ hz3]
  simp only [View.readAt_eq_ld, harg2.read_unread, harg3.read_unread, harg4.read_unread, harg5.read_unread, harg6.read_unread,
    View.ld_unit_zero (S := S1x4096x256) hz3, View.ld_unit_zero (S := S256x32) hz2, View.ld_unit_zero (S := S1x32) hz2,
    View.ld_unit_zero (S := S1x32x256) hz3, View.ld_unit_zero (S := S1x1x32) hz3]

/-- Case A, output 4: the zero block is stored, read back whole, and combined with the inputs' reduced block; that
    covering store is what the buffer ends with. -/
theorem out_A_4 (c : Dev nD) (i : grid0.Coords) (arg2 : Memref sig .tc .vmem S1x4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S1x32x256 .f32) (harg5 : arg5.IsWhole) (arg6 : Memref sig .tc .vmem S1x1x32 .f32) (harg6 : arg6.IsWhole) (hc0 : cond0_0 i)
    (x0 : Vec F S1x4096x256 .f32) (x1 : Vec F S256x32 .f32) (x2 : Vec F S1x32 .f32) :
    out0_A_4 c i arg2 harg2 arg3 harg3 arg4 harg4 arg5 harg5 arg6 harg6 hc0 x0 x1 x2 = k0_pay1 (k0_pay6 x0 x1 x2) (k0_pay3 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x1x32) hz3, View.readCov_unit_zero (S := S1x1x32) _ hz3]
  simp only [View.readAt_eq_ld, harg2.read_unread, harg3.read_unread, harg4.read_unread, harg5.read_unread, harg6.read_unread,
    View.ld_unit_zero (S := S1x4096x256) hz3, View.ld_unit_zero (S := S256x32) hz2, View.ld_unit_zero (S := S1x32) hz2,
    View.ld_unit_zero (S := S1x32x256) hz3, View.ld_unit_zero (S := S1x1x32) hz3]

/-- Case B, output 3: the buffer's carried contents are read whole and the covering update of them by the three
    input blocks is what the buffer ends with. -/
theorem out_B_3 (c : Dev nD) (i : grid0.Coords) (arg2 : Memref sig .tc .vmem S1x4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S1x32x256 .f32) (harg5 : arg5.IsWhole) (arg6 : Memref sig .tc .vmem S1x1x32 .f32) (harg6 : arg6.IsWhole) (hc0 : ¬cond0_0 i)
    (x0 : Vec F S1x4096x256 .f32) (x1 : Vec F S256x32 .f32) (x2 : Vec F S1x32 .f32) (xo3 : Vec F S1x32x256 .f32) (xo4 : Vec F S1x1x32 .f32) :
    out0_B_3 c i arg2 harg2 arg3 harg3 arg4 harg4 arg5 harg5 arg6 harg6 hc0 x0 x1 x2 xo3 xo4 = k0_pay7 x0 x1 x2 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  rw [View.canon_unit_zero hz3]
  simp only [View.readAt_eq_ld, harg2.read_unread, harg3.read_unread, harg4.read_unread, harg5.read_unread, harg6.read_unread,
    View.ld_unit_zero (S := S1x4096x256) hz3, View.ld_unit_zero (S := S256x32) hz2, View.ld_unit_zero (S := S1x32) hz2,
    View.ld_unit_zero (S := S1x32x256) hz3, View.ld_unit_zero (S := S1x1x32) hz3]

/-- Case B, output 4: the buffer's carried contents are read whole and combined with the inputs' reduced block;
    that covering store is what the buffer ends with. -/
theorem out_B_4 (c : Dev nD) (i : grid0.Coords) (arg2 : Memref sig .tc .vmem S1x4096x256 .f32) (harg2 : arg2.IsWhole) (arg3 : Memref sig .tc .vmem S256x32 .f32) (harg3 : arg3.IsWhole) (arg4 : Memref sig .tc .vmem S1x32 .f32) (harg4 : arg4.IsWhole) (arg5 : Memref sig .tc .vmem S1x32x256 .f32) (harg5 : arg5.IsWhole) (arg6 : Memref sig .tc .vmem S1x1x32 .f32) (harg6 : arg6.IsWhole) (hc0 : ¬cond0_0 i)
    (x0 : Vec F S1x4096x256 .f32) (x1 : Vec F S256x32 .f32) (x2 : Vec F S1x32 .f32) (xo3 : Vec F S1x32x256 .f32) (xo4 : Vec F S1x1x32 .f32) :
    out0_B_4 c i arg2 harg2 arg3 harg3 arg4 harg4 arg5 harg5 arg6 harg6 hc0 x0 x1 x2 xo3 xo4 = k0_pay1 (k0_pay6 x0 x1 x2) xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg3.read_unread, harg4.read_unread, harg5.read_unread, harg6.read_unread,
    View.ld_unit_zero (S := S1x4096x256) hz3, View.ld_unit_zero (S := S256x32) hz2, View.ld_unit_zero (S := S1x32) hz2,
    View.ld_unit_zero (S := S1x32x256) hz3, View.ld_unit_zero (S := S1x1x32) hz3]

end Cert.KernelIdeal.Pieces

end
-- ==== Proof.KernelAcc.lean ====
/-
  From the tiles to the whole arrays. Grid point t works on batch entry t / 4 and on rows 4096·(t % 4) … of it; the
  weights and the bias are the same whole arrays at every point. By induction over the points, after point t the two
  accumulators hold the running sums of the contributions of t's group of four tiles. At the group's last point these
  are the sums over all 16384 rows (a sum taken tile by tile is the sum), and that is the point at which the block of
  batch entry t / 4 is written back. The written blocks cover both result arrays, so after the run entry (b, k, d) of
  the first is aggV b k d and entry (b, 0, k) of the second is aggS b k.
-/
import proofs.«180966_j15418932592835_1_alg».proof.Proof.Gen.KernelIdeal.Frame
import proofs.«180966_j15418932592835_1_alg».proof.Proof.Softmax
import proofs.«180966_j15418932592835_1_alg».proof.Proof.KernelTile
import proofs.«180966_j15418932592835_1_alg».proof.Proof.KernelPieces
import Idealize.ShloMosaic.Lib.Pipeline.Value
import Idealize.ShloMosaic.Lib.StableHlo.Run
import Idealize.ShloMosaic.Lib.Tactic
import Idealize.ShloMosaic.Lib.ValueIdx
import Idealize.ShloMosaic.Lib.ValueLayout

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.Vlad Idealize.ShloMosaic.ValueIdx

variable (m : (ℓ : Loc nD τ sig) → Buf (Elt Ideal) ℓ)

/-- The three input blocks at a grid point, at their literal types. -/
abbrev xblk (c : Dev nD) (t : Fin cfg0.N) : Vec Ideal S1x4096x256 .f32 := iblk m c 0 t
abbrev wblk (c : Dev nD) (t : Fin cfg0.N) : Vec Ideal S256x32 .f32 := iblk m c 1 t
abbrev bblk (c : Dev nD) (t : Fin cfg0.N) : Vec Ideal S1x32 .f32 := iblk m c 2 t

/-- The index maps over the grid: point t is batch entry t / 4, row tile t % 4. -/
theorem idx_facts : ∀ t : Fin cfg0.N, win0_0.index t (0 : Fin 3) = t.val / 4 ∧ win0_0.index t (1 : Fin 3) = t.val % 4
    ∧ win0_0.index t (2 : Fin 3) = 0 ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- The rows block at point t is rows 4096·(t % 4) … of batch entry t / 4. -/
theorem xblk_apply (c : Dev nD) (t : Fin cfg0.N) (r : Fin 4096) (d : Fin 256) (bb : Fin 16) (n : Fin 16384)
    (hb : bb.val = t.val / 4) (hn : n.val = 4096 * (t.val % 4) + r.val) :
    xblk m c t (ix3 (0 : Fin 1) r d) = m ((c : Thread nD τ).loc main_arg0) (ix3 bb n d) := by
  obtain ⟨e0, e1, e2, -⟩ := idx_facts t
  unfold xblk iblk
  rw [View.read_apply]
  show V m c main_arg0 _ = _
  rw [V_main_arg0]
  congr 1
  funext a
  apply Fin.ext
  match a with
  | ⟨0, _⟩ => show win0_0.index t (0 : Fin 3) * 1 + 1 * 0 = bb.val; omega
  | ⟨1, _⟩ => show win0_0.index t (1 : Fin 3) * 4096 + 1 * r.val = n.val; omega
  | ⟨2, _⟩ => show win0_0.index t (2 : Fin 3) * 256 + 1 * d.val = d.val; omega

/-- Before the kernel runs, the host writes the transposed weights; -/
theorem V_main_v0 (c : Dev nD) : (V m c main_v0 : S256x32.Idx → EReal)
    = transpose S256x32 [1, 0] (m ((c : Thread nD τ).loc main_arg1)) Facts₀.transposes_S32x256_S256x32_1_0 := by
  show StableHlo.after hostOps0 (fun b => m (c, b)) (Proc.devRef .tc main_v0) = _
  after_results

/-- and the bias as one row. -/
theorem V_main_v1 (c : Dev nD) : (V m c main_v1 : S1x32.Idx → EReal)
    = shapeCast S1x32 (m ((c : Thread nD τ).loc main_arg2)) Facts₀.shapeCasts_S32_S1x32 := by
  show StableHlo.after hostOps0 (fun b => m (c, b)) (Proc.devRef .tc main_v1) = _
  after_results
  rfl

/-- The weights block at any point is the whole transposed weight matrix. -/
theorem wblk_apply (c : Dev nD) (t : Fin cfg0.N) (d : Fin 256) (k : Fin 32) :
    wblk m c t (ix2 d k) = m ((c : Thread nD τ).loc main_arg1) (ix2 k d) := by
  obtain ⟨-, -, -, e3, e4, -⟩ := idx_facts t
  unfold wblk iblk
  rw [View.read_apply]
  show V m c main_v0 _ = _
  rw [V_main_v0]
  have e : (((cfg0.win 1).blk t).view.emb (ix2 d k) : S256x32.Idx) = ix2 d k := by
    funext a
    apply Fin.ext
    match a with
    | ⟨0, _⟩ => show win0_1.index t (0 : Fin 2) * 256 + 1 * d.val = d.val; omega
    | ⟨1, _⟩ => show win0_1.index t (1 : Fin 2) * 32 + 1 * k.val = k.val; omega
  rw [e]
  exact transpose_ix2_apply _ _ d k

/-- The bias block at any point is the bias. -/
theorem bblk_apply (c : Dev nD) (t : Fin cfg0.N) (k : Fin 32) :
    bblk m c t (ix2 (0 : Fin 1) k) = m ((c : Thread nD τ).loc main_arg2) (ix1 k) := by
  obtain ⟨-, -, -, -, -, e5, e6, -⟩ := idx_facts t
  unfold bblk iblk
  rw [View.read_apply]
  show V m c main_v1 _ = _
  rw [V_main_v1]
  have e : (((cfg0.win 2).blk t).view.emb (ix2 (0 : Fin 1) k) : S1x32.Idx) = ix2 (0 : Fin 1) k := by
    funext a
    apply Fin.ext
    match a with
    | ⟨0, _⟩ => show win0_2.index t (0 : Fin 2) * 1 + 1 * 0 = 0; omega
    | ⟨1, _⟩ => show win0_2.index t (1 : Fin 2) * 32 + 1 * k.val = k.val; omega
  rw [e]
  exact shapeCast_apply _ _ _ _ (by
    show ((⟨1, ![32]⟩ : Shape).rowMajor (ix1 k)).val = ((⟨2, ![1, 32]⟩ : Shape).rowMajor (ix2 (0 : Fin 1) k)).val
    rw [Shape.rowMajor_val_one, Shape.rowMajor_val_two]
    show k.val = 0 * 32 + k.val
    omega)

/-- The soft assignment of the rows block at point n (nothing past the grid). -/
def asg (c : Dev nD) (n : ℕ) (r : Fin 4096) (k : Fin 32) : EReal :=
  if h : n < cfg0.N then k0_pay5 (F := Ideal) (xblk m c ⟨n, h⟩) (wblk m c ⟨n, h⟩) (bblk m c ⟨n, h⟩) (ix2 r k) else 0

/-- What point n adds to entry (k, d) of the weighted sum; -/
def cV (c : Dev nD) (k : Fin 32) (d : Fin 256) (n : ℕ) : EReal :=
  if h : n < cfg0.N then ∑ r : Fin 4096, k0_pay5 (F := Ideal) (xblk m c ⟨n, h⟩) (wblk m c ⟨n, h⟩) (bblk m c ⟨n, h⟩) (ix2 r k)
    * xblk m c ⟨n, h⟩ (ix3 (0 : Fin 1) r d) else 0

/-- and to entry k of the assignment total. -/
def cS (c : Dev nD) (k : Fin 32) (n : ℕ) : EReal :=
  if h : n < cfg0.N then ∑ r : Fin 4096, k0_pay5 (F := Ideal) (xblk m c ⟨n, h⟩) (wblk m c ⟨n, h⟩) (bblk m c ⟨n, h⟩) (ix2 r k) else 0

/-- After point n the two output buffers hold the running sums of the contributions of n's group of four points:
    the first point of a group starts from zero, every later one adds to what the point before left. -/
theorem outsAt_inv (c : Dev nD) : ∀ (n : ℕ) (h : n < cfg0.N),
    (∀ (k : Fin 32) (d : Fin 256), (outsAt0 m c n h).1 (ix3 (0 : Fin 1) k d) = running (cV m c k d) n)
    ∧ (∀ k : Fin 32, (outsAt0 m c n h).2 (ix3 (0 : Fin 1) (0 : Fin 1) k) = running (cS m c k) n) := by
  intro n
  induction n with
  | zero =>
    intro h
    have h0 : (⟨0, h⟩ : Fin cfg0.N).val % 4 = 0 := rfl
    refine ⟨fun k d => ?_, fun k => ?_⟩
    · rw [outsAt0_A m c ⟨0, h⟩ h0]
      dsimp only
      rw [Pieces.out_A_3, Tile.pay7_apply, Tile.pay2_apply, zero_add, running_first _ _ h0]
      unfold cV
      rw [dif_pos h]
    · rw [outsAt0_A m c ⟨0, h⟩ h0]
      dsimp only
      rw [Pieces.out_A_4, Tile.pay16_apply, Tile.pay3_apply, zero_add, running_first _ _ h0]
      unfold cS
      rw [dif_pos h]
  | succ n ih =>
    intro h
    by_cases h0 : (n + 1) % 4 = 0
    · have h0' : (⟨n + 1, h⟩ : Fin cfg0.N).val % 4 = 0 := h0
      refine ⟨fun k d => ?_, fun k => ?_⟩
      · rw [outsAt0_A m c ⟨n + 1, h⟩ h0']
        dsimp only
        rw [Pieces.out_A_3, Tile.pay7_apply, Tile.pay2_apply, zero_add, running_first _ _ h0]
        unfold cV
        rw [dif_pos h]
      · rw [outsAt0_A m c ⟨n + 1, h⟩ h0']
        dsimp only
        rw [Pieces.out_A_4, Tile.pay16_apply, Tile.pay3_apply, zero_add, running_first _ _ h0]
        unfold cS
        rw [dif_pos h]
    · have h0' : ¬ (⟨n + 1, h⟩ : Fin cfg0.N).val % 4 = 0 := h0
      obtain ⟨ihV, ihS⟩ := ih (Nat.lt_of_succ_lt h)
      refine ⟨fun k d => ?_, fun k => ?_⟩
      · rw [outsAt0_B m c ⟨n + 1, h⟩ h0']
        dsimp only
        rw [Pieces.out_B_3, Tile.pay7_apply, running_next _ _ h0]
        show (outsAt0 m c n _).1 (ix3 (0 : Fin 1) k d) + _ = running (cV m c k d) n + _
        rw [ihV k d]
        unfold cV
        rw [dif_pos h]
      · rw [outsAt0_B m c ⟨n + 1, h⟩ h0']
        dsimp only
        rw [Pieces.out_B_4, Tile.pay16_apply, running_next _ _ h0]
        show (outsAt0 m c n _).2 (ix3 (0 : Fin 1) (0 : Fin 1) k) + _ = running (cS m c k) n + _
        rw [ihS k]
        unfold cS
        rw [dif_pos h]

/-- The soft assignment the kernel computes on the rows block at point n = 4·q + j is the soft assignment of rows
    4096·j … of batch entry q. -/
theorem pay5_point (c : Dev nD) (t : Fin cfg0.N) (bb : Fin 16) (hb : bb.val = t.val / 4) (r : Fin 4096) (k : Fin 32)
    (n : Fin 16384) (hn : n.val = 4096 * (t.val % 4) + r.val) :
    k0_pay5 (F := Ideal) (xblk m c t) (wblk m c t) (bblk m c t) (ix2 r k)
      = A (m ((c : Thread nD τ).loc main_arg0)) (m ((c : Thread nD τ).loc main_arg1)) (m ((c : Thread nD τ).loc main_arg2)) bb n k := by
  rw [Tile.pay5_apply]
  unfold A
  have e0 : (fun d => xblk m c t (ix3 (0 : Fin 1) r d)) = fun d => m ((c : Thread nD τ).loc main_arg0) (ix3 bb n d) :=
    funext fun d => xblk_apply m c t r d bb n hb hn
  have e1 : (fun (k : Fin 32) (d : Fin 256) => wblk m c t (ix2 d k)) = fun k d => m ((c : Thread nD τ).loc main_arg1) (ix2 k d) :=
    funext fun k => funext fun d => wblk_apply m c t d k
  have e2 : (fun k => bblk m c t (ix2 (0 : Fin 1) k)) = fun k => m ((c : Thread nD τ).loc main_arg2) (ix1 k) :=
    funext fun k => bblk_apply m c t k
  rw [e0, e1, e2]

/-- The grid has 64 points. -/
theorem N_eq : cfg0.N = 64 := N_0

/-- At the last point of batch entry q's group the first output buffer holds the assignment-weighted sum of all
    16384 rows of that entry: the four tiles' contributions are the four blocks of the sum. -/
theorem acc_final_V (c : Dev nD) (t : Fin cfg0.N) (h3 : t.val % 4 = 3) (bb : Fin 16) (hb : bb.val = t.val / 4)
    (k : Fin 32) (d : Fin 256) :
    (outsAt0 m c t.val t.isLt).1 (ix3 (0 : Fin 1) k d)
      = aggV (m ((c : Thread nD τ).loc main_arg0)) (m ((c : Thread nD τ).loc main_arg1)) (m ((c : Thread nD τ).loc main_arg2)) bb k d := by
  have hN := N_eq
  have ht := t.isLt
  rw [(outsAt_inv m c t.val t.isLt).1 k d]
  have e : t.val = 4 * bb.val + 3 := by omega
  rw [e, running_last]
  unfold aggV
  rw [sum_tiles]
  refine Finset.sum_congr rfl fun j _ => ?_
  have hj := j.isLt
  have hlt : 4 * bb.val + j.val < cfg0.N := by omega
  unfold cV
  rw [dif_pos hlt]
  refine Finset.sum_congr rfl fun r _ => ?_
  have hr := r.isLt
  have hn : (⟨4096 * j.val + r.val, tile_row_lt j r⟩ : Fin 16384).val = 4096 * ((⟨4 * bb.val + j.val, hlt⟩ : Fin cfg0.N).val % 4) + r.val := by
    show 4096 * j.val + r.val = 4096 * ((4 * bb.val + j.val) % 4) + r.val
    omega
  have hb' : bb.val = (⟨4 * bb.val + j.val, hlt⟩ : Fin cfg0.N).val / 4 := by
    show bb.val = (4 * bb.val + j.val) / 4
    omega
  rw [pay5_point m c ⟨4 * bb.val + j.val, hlt⟩ bb hb' r k _ hn, xblk_apply m c ⟨4 * bb.val + j.val, hlt⟩ r d bb _ hb' hn]

/-- Likewise the second output buffer holds the total assignment of each cluster. -/
theorem acc_final_S (c : Dev nD) (t : Fin cfg0.N) (h3 : t.val % 4 = 3) (bb : Fin 16) (hb : bb.val = t.val / 4)
    (k : Fin 32) :
    (outsAt0 m c t.val t.isLt).2 (ix3 (0 : Fin 1) (0 : Fin 1) k)
      = aggS (m ((c : Thread nD τ).loc main_arg0)) (m ((c : Thread nD τ).loc main_arg1)) (m ((c : Thread nD τ).loc main_arg2)) bb k := by
  have hN := N_eq
  have ht := t.isLt
  rw [(outsAt_inv m c t.val t.isLt).2 k]
  have e : t.val = 4 * bb.val + 3 := by omega
  rw [e, running_last]
  unfold aggS
  rw [sum_tiles]
  refine Finset.sum_congr rfl fun j _ => ?_
  have hj := j.isLt
  have hlt : 4 * bb.val + j.val < cfg0.N := by omega
  unfold cS
  rw [dif_pos hlt]
  refine Finset.sum_congr rfl fun r _ => ?_
  have hr := r.isLt
  have hn : (⟨4096 * j.val + r.val, tile_row_lt j r⟩ : Fin 16384).val = 4096 * ((⟨4 * bb.val + j.val, hlt⟩ : Fin cfg0.N).val % 4) + r.val := by
    show 4096 * j.val + r.val = 4096 * ((4 * bb.val + j.val) % 4) + r.val
    omega
  have hb' : bb.val = (⟨4 * bb.val + j.val, hlt⟩ : Fin cfg0.N).val / 4 := by
    show bb.val = (4 * bb.val + j.val) / 4
    omega
  rw [pay5_point m c ⟨4 * bb.val + j.val, hlt⟩ bb hb' r k _ hn]

/-- The whole first result array: entry (bb, k, d) is the weighted sum for batch entry bb. -/
def GV (c : Dev nD) : S16x32x256.Idx → EReal := fun i =>
  aggV (m ((c : Thread nD τ).loc main_arg0)) (m ((c : Thread nD τ).loc main_arg1)) (m ((c : Thread nD τ).loc main_arg2)) (i 0) (i 1) (i 2)

/-- The whole second result array: entry (bb, 0, k) is the assignment total for batch entry bb. -/
def GS (c : Dev nD) : S16x1x32.Idx → EReal := fun i =>
  aggS (m ((c : Thread nD τ).loc main_arg0)) (m ((c : Thread nD τ).loc main_arg1)) (m ((c : Thread nD τ).loc main_arg2)) (i 0) (i 2)

set_option maxRecDepth 65536 in
/-- What a writing-back point writes to the first result array is that array's block. -/
theorem flushed3_eq (c : Dev nD) (t : Fin cfg0.N) (hf : (cfg0.win 3).flush t = true) :
    (dats m 0 c).flushed 3 t = ((cfg0.win 3).blk t).view.read (Elt Ideal) (GV m c) := by
  have h3 : t.val % 4 = 3 := (flush0_3 t).mp hf
  have hN := N_eq
  have ht := t.isLt
  obtain ⟨-, -, -, -, -, -, -, e7, e8, e9, -⟩ := idx_facts t
  show (cfg0.win 3).cut (grid0.coords t) ((dats m 0 c).after 3 t) = _
  rw [after0_3]
  funext j
  rw [View.read_apply]
  obtain ⟨u, k, d, rfl⟩ : ∃ (u : Fin 1) (k : Fin 32) (d : Fin 256), j = ix3 u k d := ⟨j 0, j 1, j 2, eq_ix3 j⟩
  obtain rfl : u = 0 := Subsingleton.elim _ _
  have e : (((cfg0.win 3).blk t).view.emb (ix3 (0 : Fin 1) k d) : S16x32x256.Idx) = ix3 (⟨t.val / 4, by omega⟩ : Fin 16) k d := by
    funext a
    apply Fin.ext
    match a with
    | ⟨0, _⟩ => show win0_3.index t (0 : Fin 3) * 1 + 1 * 0 = t.val / 4; omega
    | ⟨1, _⟩ => show win0_3.index t (1 : Fin 3) * 32 + 1 * k.val = k.val; omega
    | ⟨2, _⟩ => show win0_3.index t (2 : Fin 3) * 256 + 1 * d.val = d.val; omega
  rw [e]
  exact acc_final_V m c t h3 ⟨t.val / 4, by omega⟩ rfl k d

set_option maxRecDepth 65536 in
/-- What a writing-back point writes to the second result array is that array's block. -/
theorem flushed4_eq (c : Dev nD) (t : Fin cfg0.N) (hf : (cfg0.win 4).flush t = true) :
    (dats m 0 c).flushed 4 t = ((cfg0.win 4).blk t).view.read (Elt Ideal) (GS m c) := by
  have h3 : t.val % 4 = 3 := (flush0_4 t).mp hf
  have hN := N_eq
  have ht := t.isLt
  obtain ⟨-, -, -, -, -, -, -, -, -, -, e10, e11, e12⟩ := idx_facts t
  show (cfg0.win 4).cut (grid0.coords t) ((dats m 0 c).after 4 t) = _
  rw [after0_4]
  funext j
  rw [View.read_apply]
  obtain ⟨u, v, k, rfl⟩ : ∃ (u : Fin 1) (v : Fin 1) (k : Fin 32), j = ix3 u v k := ⟨j 0, j 1, j 2, eq_ix3 j⟩
  obtain rfl : u = 0 := Subsingleton.elim _ _
  obtain rfl : v = 0 := Subsingleton.elim _ _
  have e : (((cfg0.win 4).blk t).view.emb (ix3 (0 : Fin 1) (0 : Fin 1) k) : S16x1x32.Idx) = ix3 (⟨t.val / 4, by omega⟩ : Fin 16) (0 : Fin 1) k := by
    funext a
    apply Fin.ext
    match a with
    | ⟨0, _⟩ => show win0_4.index t (0 : Fin 3) * 1 + 1 * 0 = t.val / 4; omega
    | ⟨1, _⟩ => show win0_4.index t (1 : Fin 3) * 1 + 1 * 0 = 0; omega
    | ⟨2, _⟩ => show win0_4.index t (2 : Fin 3) * 32 + 1 * k.val = k.val; omega
  rw [e]
  exact acc_final_S m c t h3 ⟨t.val / 4, by omega⟩ rfl k

/-- Batch entry bb's block of either result array is written back at point 4·bb + 3. -/
theorem last_point (bb : Fin 16) : 4 * bb.val + 3 < cfg0.N := by
  have := bb.isLt; have := N_eq; omega

/-- The last point of batch entry bb's group. -/
abbrev lastOf (bb : Fin 16) : Fin cfg0.N := ⟨4 * bb.val + 3, last_point bb⟩

/-- An index of the first result array is in point t's block iff each coordinate is in the block's range. -/
theorem mem_blk3 (t : Fin cfg0.N) (i : S16x32x256.Idx) :
    i ∈ ((cfg0.win 3).blk t).view.set ↔ ∀ a : Fin 3, win0_3.index t a * S1x32x256.size a ≤ (i a).val ∧ (i a).val < win0_3.index t a * S1x32x256.size a + S1x32x256.size a := by
  show i ∈ ((View.whole main_v2_0).slice (win0_3.rect t)).set ↔ _
  rw [View.set_slice_whole, Rect.mem_set_unit]
  exact Iff.rfl

/-- The same for the second result array. -/
theorem mem_blk4 (t : Fin cfg0.N) (i : S16x1x32.Idx) :
    i ∈ ((cfg0.win 4).blk t).view.set ↔ ∀ a : Fin 3, win0_4.index t a * S1x1x32.size a ≤ (i a).val ∧ (i a).val < win0_4.index t a * S1x1x32.size a + S1x1x32.size a := by
  show i ∈ ((View.whole main_v2_1).slice (win0_4.rect t)).set ↔ _
  rw [View.set_slice_whole, Rect.mem_set_unit]
  exact Iff.rfl

/-- Every index of the first result array is written back by the last point of its batch entry's group. -/
theorem cover3 (i : S16x32x256.Idx) : ∃ t : Fin cfg0.N, (cfg0.win 3).flush t = true ∧ i ∈ ((cfg0.win 3).blk t).view.set := by
  have hi0 : (i 0).val < 16 := (i 0).isLt
  have hi1 : (i 1).val < 32 := (i 1).isLt
  have hi2 : (i 2).val < 256 := (i 2).isLt
  refine ⟨lastOf (i 0), (flush0_3 _).mpr (by show (4 * (i 0).val + 3) % 4 = 3; omega), ?_⟩
  obtain ⟨-, -, -, -, -, -, -, e7, e8, e9, -⟩ := idx_facts (lastOf (i 0))
  have e7' : win0_3.index (lastOf (i 0)) (0 : Fin 3) = (i 0).val := by
    rw [e7]; show (4 * (i 0).val + 3) / 4 = (i 0).val; omega
  rw [mem_blk3]
  intro a
  match a with
  | ⟨0, _⟩ => show win0_3.index (lastOf (i 0)) (0 : Fin 3) * 1 ≤ (i 0).val ∧ (i 0).val < win0_3.index (lastOf (i 0)) (0 : Fin 3) * 1 + 1; omega
  | ⟨1, _⟩ => show win0_3.index (lastOf (i 0)) (1 : Fin 3) * 32 ≤ (i 1).val ∧ (i 1).val < win0_3.index (lastOf (i 0)) (1 : Fin 3) * 32 + 32; omega
  | ⟨2, _⟩ => show win0_3.index (lastOf (i 0)) (2 : Fin 3) * 256 ≤ (i 2).val ∧ (i 2).val < win0_3.index (lastOf (i 0)) (2 : Fin 3) * 256 + 256; omega

/-- The same for the second result array. -/
theorem cover4 (i : S16x1x32.Idx) : ∃ t : Fin cfg0.N, (cfg0.win 4).flush t = true ∧ i ∈ ((cfg0.win 4).blk t).view.set := by
  have hi0 : (i 0).val < 16 := (i 0).isLt
  have hi1 : (i 1).val < 1 := (i 1).isLt
  have hi2 : (i 2).val < 32 := (i 2).isLt
  refine ⟨lastOf (i 0), (flush0_4 _).mpr (by show (4 * (i 0).val + 3) % 4 = 3; omega), ?_⟩
  obtain ⟨-, -, -, -, -, -, -, -, -, -, e10, e11, e12⟩ := idx_facts (lastOf (i 0))
  have e10' : win0_4.index (lastOf (i 0)) (0 : Fin 3) = (i 0).val := by
    rw [e10]; show (4 * (i 0).val + 3) / 4 = (i 0).val; omega
  rw [mem_blk4]
  intro a
  match a with
  | ⟨0, _⟩ => show win0_4.index (lastOf (i 0)) (0 : Fin 3) * 1 ≤ (i 0).val ∧ (i 0).val < win0_4.index (lastOf (i 0)) (0 : Fin 3) * 1 + 1; omega
  | ⟨1, _⟩ => show win0_4.index (lastOf (i 0)) (1 : Fin 3) * 1 ≤ (i 1).val ∧ (i 1).val < win0_4.index (lastOf (i 0)) (1 : Fin 3) * 1 + 1; omega
  | ⟨2, _⟩ => show win0_4.index (lastOf (i 0)) (2 : Fin 3) * 32 ≤ (i 2).val ∧ (i 2).val < win0_4.index (lastOf (i 0)) (2 : Fin 3) * 32 + 32; omega

/-- The first result array after the run. -/
theorem final3 (c : Dev nD) : (dats m 0 c).arrAt 3 cfg0.N = GV m c :=
  (dats m 0 c).arrAt_eq_of_cover 3 (GV m c) (flushed3_eq m c) cover3

/-- The second result array after the run. -/
theorem final4 (c : Dev nD) : (dats m 0 c).arrAt 4 cfg0.N = GS m c :=
  (dats m 0 c).arrAt_eq_of_cover 4 (GS m c) (flushed4_eq m c) cover4

end Cert.KernelIdeal.Acc

end
-- ==== Proof.KernelRun.lean ====
/-
  After the kernel the host subtracts total × centre from the weighted sums, divides each cluster's residual vector by
  its Euclidean length (at least the small constant), flattens the 32 × 256 entries of a batch entry to one vector of
  8192, and divides that by its length (again at least the small constant). These operations are collected in one
  function `post` of the two aggregates and the centres; the program's result is `post` of the arrays the kernel left.
-/
import proofs.«180966_j15418932592835_1_alg».proof.Proof.Gen.KernelIdeal.Frame
import proofs.«180966_j15418932592835_1_alg».proof.Proof.KernelAcc
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Tail

open Cert.KernelIdeal Cert.KernelIdeal.Gen Cert.Vlad Idealize.ShloMosaic.ValueIdx

/-- The residuals: the weighted sums minus each cluster's total assignment times its centre. -/
def resid (accv : FVec Ideal S16x32x256 .f32) (tot : FVec Ideal S16x32 .f32) (km : FVec Ideal S32x256 .f32) : FVec Ideal S16x32x256 .f32 :=
  subf accv (mulf
    (broadcastInDim S16x32x256 ![0, 1, 2] Facts₀.bcast_S16x32x1_S16x32x256_0_1_2 (broadcastInDim S16x32x1 ![0, 1] Facts₀.bcast_S16x32_S16x32x1_0_1 tot))
    (broadcastInDim S16x32x256 ![0, 1, 2] Facts₀.bcast_S1x32x256_S16x32x256_0_1_2 (broadcastInDim S1x32x256 ![1, 2] Facts₀.bcast_S32x256_S1x32x256_1_2 km)))

/-- Each cluster's residual vector divided by its length (never less than the small constant). -/
def intra (v : FVec Ideal S16x32x256 .f32) : FVec Ideal S16x32x256 .f32 :=
  Host.divf v (broadcastInDim S16x32x256 ![0, 1, 2] Facts₀.bcast_S16x32x1_S16x32x256_0_1_2
    (maximumf (Host.sqrt (broadcastInDim S16x32x1 ![0, 1] Facts₀.bcast_S16x32_S16x32x1_0_1
      (Host.reduceAdd (mulf v v) (constant (F := Ideal) S_ .f32 0x00000000#32) Facts₀.reducesTo_S16x32x256_S16x32_d2 Facts₀.h_S_)))
      (broadcastInDim S16x32x1 ![] Facts₀.bcast_S_S16x32x1 (constant (F := Ideal) S_ .f32 0x2B8CBCCC#32))))

/-- Each batch entry's flattened vector divided by its length (never less than the small constant). -/
def full (v : FVec Ideal S16x8192 .f32) : FVec Ideal S16x8192 .f32 :=
  Host.divf v (broadcastInDim S16x8192 ![0, 1] Facts₀.bcast_S16x1_S16x8192_0_1
    (maximumf (Host.sqrt (broadcastInDim S16x1 ![0] Facts₀.bcast_S16_S16x1_0
      (Host.reduceAdd (mulf v v) (constant (F := Ideal) S_ .f32 0x00000000#32) Facts₀.reducesTo_S16x8192_S16_d1 Facts₀.h_S_)))
      (broadcastInDim S16x1 ![] Facts₀.bcast_S_S16x1 (constant (F := Ideal) S_ .f32 0x2B8CBCCC#32))))

/-- Everything after the two aggregates. -/
def post (accv : FVec Ideal S16x32x256 .f32) (tot : FVec Ideal S16x32 .f32) (km : FVec Ideal S32x256 .f32) : FVec Ideal S16x8192 .f32 :=
  full (shapeCast S16x8192 (intra (resid accv tot km)) Facts₀.shapeCasts_S16x32x256_S16x8192)

variable (m : (ℓ : Loc nD τ sig) → Buf (Elt Ideal) ℓ) (ρ : Dev nD → PrngReg)

set_option maxRecDepth 65536 in
set_option maxHeartbeats 1000000 in
/-- The host operations after the kernel compute `post` of the two result arrays and the centres. -/
theorem tail_eq (c : Dev nD) :
    Pipeline.afterTail₀ cfgs (dats m) 0 (V0 m) [hostOps1, hostOps1_1, hostOps1_2, hostOps1_3, hostOps1_4] c main_v20
      = post ((dats m 0 c).arrAt 3 cfg0.N) (shapeCast S16x32 ((dats m 0 c).arrAt 4 cfg0.N) Facts₀.shapeCasts_S16x1x32_S16x32)
          (m ((c : Thread nD τ).loc main_arg3)) := by
  have hW3 : Pipeline.withArrays (cfgs 0).spec c (V0 m c) (fun w => (dats m 0 c).arrAt w (cfgs 0).N) (Proc.devRef .tc main_v2_0)
      = (dats m 0 c).arrAt 3 cfg0.N := Pipeline.withArrays_arr spec0 launch0.win.arr_inj c _ _ 3
  have hW4 : Pipeline.withArrays (cfgs 0).spec c (V0 m c) (fun w => (dats m 0 c).arrAt w (cfgs 0).N) (Proc.devRef .tc main_v2_1)
      = (dats m 0 c).arrAt 4 cfg0.N := Pipeline.withArrays_arr spec0 launch0.win.arr_inj c _ _ 4
  have hW : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [hostOps1, hostOps1_1, hostOps1_2, hostOps1_3, hostOps1_4, List.flatten_cons, List.flatten_nil, List.append_nil, List.cons_append, List.nil_append]
  after_results
  rw [hW3, hW4, hW]
  rfl

/-- The kernel program's result: `post` of the two aggregates (the totals as a 16 × 32 array) and the centres. -/
def result (c : Dev nD) : Buf (Elt Ideal) ((c : Thread nD τ).loc main_v20) :=
  post (Acc.GV m c) (shapeCast S16x32 (Acc.GS m c) Facts₀.shapeCasts_S16x1x32_S16x32) (m ((c : Thread nD τ).loc main_arg3))

/-- Every execution of the kernel program ends with its result array at `result` and its arguments unchanged. -/
theorem run : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v20 (Pipeline.mem_restRefs_of main_v20 (by decide) (by decide))).trans
        ((tail_eq m c).trans (by rw [Acc.final3, Acc.final4]; rfl)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Tail

end
-- ==== Proof.RefValue.lean ====
/-
  The reference program read at an index, stage by stage, for one row (b, n) of the input: its 32 logits are the row's
  inner products with the weight rows plus the bias; the row maximum is the fold of max from minus infinity over the 32
  logits (joined with minus infinity once more); the soft assignment is exp (logit - maximum) over the sum of those
  exponentials. Summed over the 16384 rows n this gives the assignment totals, and summed with the factor x (b, n, d)
  the assignment-weighted sums: the three functions A, aggS, aggV.
-/
import proofs.«180966_j15418932592835_1_alg».proof.Proof.Gen.ReferenceIdeal.Read
import proofs.«180966_j15418932592835_1_alg».proof.Proof.Softmax
import proofs.«180966_j15418932592835_1_alg».proof.Proof.LibRowReduce
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Vlad

/-- The row's logits: the abbreviation used below. -/
abbrev Lrow (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) : Fin 32 → EReal :=
  rlogit (fun d => x0 (ix3 bb n d)) (fun k d => x1 (ix2 k d)) (fun k => x2 (ix1 k))

/-! Index equations: the operand indices of each operation, at a constructor index. -/

theorem lidx_v0_ix (bb : Fin 16) (n : Fin 16384) (k : Fin 32) (d : Fin 256) :
    lidx_main_v0 (ix3 bb n k) d = ix3 bb n d := funext fun a => Fin.ext (by match a with | ⟨0, _⟩ => rfl | ⟨1, _⟩ => rfl | ⟨2, _⟩ => rfl)

theorem ridx_v0_ix (bb : Fin 16) (n : Fin 16384) (k : Fin 32) (d : Fin 256) :
    ridx_main_v0 (ix3 bb n k) d = ix2 k d := funext fun a => Fin.ext (by match a with | ⟨0, _⟩ => rfl | ⟨1, _⟩ => rfl)

theorem idx_v1_v2_ix (bb : Fin 16) (n : Fin 16384) (k : Fin 32) :
    idx_main_v1 (idx_main_v2 (ix3 bb n k)) = ix1 k := funext fun a => Fin.ext (by match a with | ⟨0, _⟩ => rfl)

theorem idx_v7_v8_ix (bb : Fin 16) (n : Fin 16384) (k : Fin 32) :
    idx_main_v7 (idx_main_v8 (ix3 bb n k)) = ix2 bb n := funext fun a => Fin.ext (by match a with | ⟨0, _⟩ => rfl | ⟨1, _⟩ => rfl)

theorem idx_v12_v13_ix (bb : Fin 16) (n : Fin 16384) (k : Fin 32) :
    idx_main_v12 (idx_main_v13 (ix3 bb n k)) = ix2 bb n := funext fun a => Fin.ext (by match a with | ⟨0, _⟩ => rfl | ⟨1, _⟩ => rfl)

theorem idx_v11_ix (bb : Fin 16) (n : Fin 16384) (k : Fin 32) :
    idx_main_v11 (ix2 bb n) k = ix3 bb n k := funext fun a => Fin.ext (by match a with | ⟨0, _⟩ => rfl | ⟨1, _⟩ => rfl | ⟨2, _⟩ => rfl)

theorem idx_v15_ix (bb : Fin 16) (k : Fin 32) (n : Fin 16384) :
    idx_main_v15 (ix2 bb k) n = ix3 bb n k := funext fun a => Fin.ext (by match a with | ⟨0, _⟩ => rfl | ⟨1, _⟩ => rfl | ⟨2, _⟩ => rfl)

theorem lidx_v16_ix (bb : Fin 16) (k : Fin 32) (d : Fin 256) (n : Fin 16384) :
    lidx_main_v16 (ix3 bb k d) n = ix3 bb n k := funext fun a => Fin.ext (by match a with | ⟨0, _⟩ => rfl | ⟨1, _⟩ => rfl | ⟨2, _⟩ => rfl)

theorem ridx_v16_ix (bb : Fin 16) (k : Fin 32) (d : Fin 256) (n : Fin 16384) :
    ridx_main_v16 (ix3 bb k d) n = ix3 bb n d := funext fun a => Fin.ext (by match a with | ⟨0, _⟩ => rfl | ⟨1, _⟩ => rfl | ⟨2, _⟩ => rfl)

/-- The logits: the row's inner product with weight row k, plus the bias. -/
theorem ref_logit (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) (k : Fin 32) :
    val_main_v3 (F := Ideal) x0 x1 x2 (ix3 bb n k) = Lrow x0 x1 x2 bb n k := by
  rw [val_main_v3_apply, val_main_v0_apply, val_main_v2_apply, val_main_v1_apply, idx_v1_v2_ix]
  simp only [Ideal.addf_def, lidx_v0_ix, ridx_v0_ix]
  rfl

/-- Entry (b, r) with column k put back on the reduced last axis is the index (b, r, k). -/
theorem lift_row3 {B R D : Nat} (h : (⟨3, ![B, R, D]⟩ : Shape).Reduces [2] (⟨2, ![B, R]⟩ : Shape)) (b : Fin B) (r : Fin R)
    (k : Fin ((⟨3, ![B, R, D]⟩ : Shape).size 2)) : h.lift (ix2 b r) k = ix3 b r (⟨k.val, k.isLt⟩ : Fin D) := by
  funext c; apply Fin.ext
  fin_cases c <;> rfl

/-- The host's reduce with a maximum body over the last of three axes, at (b, r): the fold of max from the
    initial value over that row's entries. -/
theorem hostReduce_maximumf_row3 {φ : FTy} {B R D : Nat} {u : Shape} (x : FVec Ideal ⟨3, ![B, R, D]⟩ φ)
    (init : u.Idx → Ideal φ)
    (h' : (⟨3, ![B, R, D]⟩ : Shape).ReducesTo [2] (⟨2, ![B, R]⟩ : Shape))
    (h : (⟨3, ![B, R, D]⟩ : Shape).Reduces [2] (⟨2, ![B, R]⟩ : Shape)) (hu : 0 < u.numel) (b : Fin B) (r : Fin R) :
    Host.reduce FloatOps.maximumf x init h' hu (ix2 b r)
      = (Finset.univ : Finset (Fin D)).fold max (init (Shape.Idx.first hu)) (fun k => x (ix3 b r k)) := by
  rw [Host.reduce_eq_fold_single FloatOps.maximumf x init h' h hu]
  have hf : (x ∘ h.lift (ix2 b r)) = fun k : Fin D => x (ix3 b r k) := funext fun k => congrArg x (lift_row3 h b r k)
  exact congrArg (fun f => Finset.fold max (init (Shape.Idx.first hu)) f (Finset.univ : Finset (Fin D))) hf

/-- The row maximum, taken from minus infinity. -/
theorem ref_rowmax0 (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) :
    val_main_v4 (F := Ideal) x0 x1 x2 (ix2 bb n) = Finset.univ.fold max negInf (Lrow x0 x1 x2 bb n) := by
  unfold val_main_v4
  rw [hostReduce_maximumf_row3 _ _ reducesTo_S16x16384x32_S16x16384_d2 (by decide) h_S_ bb n]
  have hf : (fun k => val_main_v3 (F := Ideal) x0 x1 x2 (ix3 bb n k)) = Lrow x0 x1 x2 bb n :=
    funext fun k => ref_logit x0 x1 x2 bb n k
  rw [hf]
  rfl

/-- The row maximum as the reference forms it: joined with minus infinity once more. -/
theorem ref_rowmax (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) :
    val_main_v6 (F := Ideal) x0 x1 x2 (ix2 bb n) = rmax (Lrow x0 x1 x2 bb n) := by
  rw [val_main_v6_apply, val_main_v5_apply, val_main_cst_0_apply, ref_rowmax0]
  rfl

/-- The shifted exponential of a logit. -/
theorem ref_exp (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) (k : Fin 32) :
    val_main_v10 (F := Ideal) x0 x1 x2 (ix3 bb n k)
      = Ideal.exp (Lrow x0 x1 x2 bb n k - rmax (Lrow x0 x1 x2 bb n)) := by
  rw [val_main_v10_apply, val_main_v9_apply, val_main_v8_apply, val_main_v7_apply, idx_v7_v8_ix, ref_logit, ref_rowmax]
  rfl

/-- The row's denominator: the sum of the shifted exponentials. -/
theorem ref_denom (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) :
    val_main_v11 (F := Ideal) x0 x1 x2 (ix2 bb n)
      = ∑ k' : Fin 32, Ideal.exp (Lrow x0 x1 x2 bb n k' - rmax (Lrow x0 x1 x2 bb n)) := by
  rw [val_main_v11_apply, val_main_cst_1_apply]
  simp only [Ideal.ofBits_def, Ideal.ofBits_zero_f32, zero_add, idx_v11_ix, ref_exp]

theorem ref_assign (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (n : Fin 16384) (k : Fin 32) :
    val_main_v14 (F := Ideal) x0 x1 x2 (ix3 bb n k) = A x0 x1 x2 bb n k := by
  rw [val_main_v14_apply, val_main_v13_apply, val_main_v12_apply, idx_v12_v13_ix, ref_exp, ref_denom]
  rfl

theorem ref_aggS (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (k : Fin 32) :
    val_main_v15 (F := Ideal) x0 x1 x2 (ix2 bb k) = aggS x0 x1 x2 bb k := by
  rw [val_main_v15_apply, val_main_cst_2_apply]
  simp only [Ideal.ofBits_def, Ideal.ofBits_zero_f32, zero_add, idx_v15_ix, ref_assign]
  rfl

theorem ref_aggV (x0 : (⟨S16x16384x256, .f32⟩ : BufTy).Contents (Elt Ideal)) (x1 : (⟨S32x256, .f32⟩ : BufTy).Contents (Elt Ideal))
    (x2 : (⟨S32, .f32⟩ : BufTy).Contents (Elt Ideal)) (bb : Fin 16) (k : Fin 32) (d : Fin 256) :
    val_main_v16 (F := Ideal) x0 x1 x2 (ix3 bb k d) = aggV x0 x1 x2 bb k d := by
  rw [val_main_v16_apply]
  simp only [lidx_v16_ix, ridx_v16_ix, ref_assign]
  rfl

end Cert.ReferenceIdeal.RefValue

end
-- ==== Proof.RefRun.lean ====
/-
  The reference's result in the same form: after its batched product (the assignment-weighted sums) and its sum over
  the rows (the assignment totals) it applies the very operations collected in `post`. Its totals form a 16 × 32 array;
  the kernel's carry a unit middle axis, and reading (b, k) of the one is reading (b, 0, k) of the other.
-/
import proofs.«180966_j15418932592835_1_alg».proof.Proof.Gen.ReferenceIdeal.Read
import proofs.«180966_j15418932592835_1_alg».proof.Proof.RefValue
import proofs.«180966_j15418932592835_1_alg».proof.Proof.KernelRun
import proofs.«180966_j15418932592835_1_alg».proof.Proof.Softmax
import Idealize.ShloMosaic.Lib.ValueIdx
import Idealize.ShloMosaic.Lib.Pipeline.Value

noncomputable section

open scoped BigOperators

namespace Cert.ReferenceIdeal.RefRun

open Cert.ReferenceIdeal Cert.ReferenceIdeal.Gen Cert.ReferenceIdeal.Read Idealize.ShloMosaic Idealize.ShloMosaic.ValueIdx Cert.Vlad

variable (x0 : (⟨S16x16384x256, .f32⟩ : BufTy).Contents (Elt Ideal)) (x1 : (⟨S32x256, .f32⟩ : BufTy).Contents (Elt Ideal))
  (x2 : (⟨S32, .f32⟩ : BufTy).Contents (Elt Ideal)) (x3 : (⟨S32x256, .f32⟩ : BufTy).Contents (Elt Ideal))

/-- After its two aggregates the reference applies the same operations as the kernel program's host part. -/
theorem ref_post : val_main_v33 (F := Ideal) x0 x1 x2 x3
    = Cert.KernelIdeal.Tail.post (val_main_v16 (F := Ideal) x0 x1 x2) (val_main_v15 (F := Ideal) x0 x1 x2) x3 := rfl

/-- The reference's batched product is the assignment-weighted sum. -/
theorem ref_v16 : val_main_v16 (F := Ideal) x0 x1 x2 = fun i => aggV x0 x1 x2 (i 0) (i 1) (i 2) := by
  funext i
  obtain ⟨bb, k, d, rfl⟩ : ∃ (bb : Fin 16) (k : Fin 32) (d : Fin 256), i = ix3 bb k d := ⟨i 0, i 1, i 2, eq_ix3 i⟩
  exact RefValue.ref_aggV x0 x1 x2 bb k d

/-- The reference's sum over the rows is the assignment total, which the kernel keeps with a unit middle axis. -/
theorem ref_v15 : val_main_v15 (F := Ideal) x0 x1 x2
    = shapeCast Cert.KernelIdeal.S16x32 (fun i : Cert.KernelIdeal.S16x1x32.Idx => aggS x0 x1 x2 (i 0) (i 2))
        Cert.KernelIdeal.Facts₀.shapeCasts_S16x1x32_S16x32 := by
  funext i
  obtain ⟨bb, k, rfl⟩ : ∃ (bb : Fin 16) (k : Fin 32), i = ix2 bb k := ⟨i 0, i 1, eq_ix2 i⟩
  rw [RefValue.ref_aggS x0 x1 x2 bb k]
  symm
  exact shapeCast_apply _ _ (ix2 bb k) (ix3 bb (0 : Fin 1) k) (by
    show ((⟨3, ![16, 1, 32]⟩ : Shape).rowMajor (ix3 bb (0 : Fin 1) k)).val = ((⟨2, ![16, 32]⟩ : Shape).rowMajor (ix2 bb k)).val
    rw [Shape.rowMajor_val_three, Shape.rowMajor_val_two]
    show (bb.val * 1 + 0) * 32 + k.val = bb.val * 32 + k.val
    omega)

/-- So the reference's result is `post` of the two aggregates and the centres. -/
theorem ref_result : val_main_v33 (F := Ideal) x0 x1 x2 x3
    = Cert.KernelIdeal.Tail.post (fun i => aggV x0 x1 x2 (i 0) (i 1) (i 2))
        (shapeCast Cert.KernelIdeal.S16x32 (fun i : Cert.KernelIdeal.S16x1x32.Idx => aggS x0 x1 x2 (i 0) (i 2))
          Cert.KernelIdeal.Facts₀.shapeCasts_S16x1x32_S16x32) x3 := by
  rw [ref_post, ref_v16, ref_v15]

end Cert.ReferenceIdeal.RefRun

end
-- ==== Proof.lean ====
/-
  The kernel program and its reference compute the same normalised descriptor.

  For each of the 16 batch entries the kernel reads the 16384 rows in 4 tiles of 4096. On each tile it forms the 32
  logits of every row (the row's inner products with the weight rows, plus the bias), their softmax shifted by the row
  maximum — the soft assignment A —, and adds to two running arrays: the assignment-weighted sum of the rows,
  ∑ A(n, k) · x(n, d) over the tile's rows n, and the column totals ∑ A(n, k). The first tile of an entry starts both
  from zero. Over the extended reals addition is commutative and associative, so after the fourth tile the two arrays hold
  the sums over all 16384 rows: exactly what the reference computes in one batched product and one sum over the rows.
  What follows the two aggregates (subtracting total × centre, dividing each cluster's vector by its length, flattening,
  dividing by the whole length) is the same sequence of operations in both programs, applied to equal arrays.
  No finiteness of the inputs is used: every step is a regrouping of sums or an identical operation.
-/
import proofs.«180966_j15418932592835_1_alg».proof.Defs
import proofs.«180966_j15418932592835_1_alg».proof.Proof.Gen.Kernel
import proofs.«180966_j15418932592835_1_alg».proof.Proof.Gen.Kernel.Skeleton
import proofs.«180966_j15418932592835_1_alg».proof.Proof.Gen.Kernel.Launch
import proofs.«180966_j15418932592835_1_alg».proof.Proof.Gen.Kernel.Points
import proofs.«180966_j15418932592835_1_alg».proof.Proof.Gen.Kernel.Frame
import proofs.«180966_j15418932592835_1_alg».proof.Proof.Gen.KernelIdeal
import proofs.«180966_j15418932592835_1_alg».proof.Proof.Gen.KernelIdeal.Skeleton
import proofs.«180966_j15418932592835_1_alg».proof.Proof.Gen.KernelIdeal.Launch
import proofs.«180966_j15418932592835_1_alg».proof.Proof.Gen.KernelIdeal.Points
import proofs.«180966_j15418932592835_1_alg».proof.Proof.Gen.KernelIdeal.Frame
import proofs.«180966_j15418932592835_1_alg».proof.Proof.Gen.ReferenceIdeal
import proofs.«180966_j15418932592835_1_alg».proof.Proof.Gen.Pre_finite_inputs
import proofs.«180966_j15418932592835_1_alg».proof.Proof.Gen.ReferenceIdeal.Run
import proofs.«180966_j15418932592835_1_alg».proof.Proof.Gen.ReferenceIdeal.Read
import proofs.«180966_j15418932592835_1_alg».proof.Proof.KernelRun
import proofs.«180966_j15418932592835_1_alg».proof.Proof.RefRun
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments both programs end with the same result array: `post` of the
    assignment-weighted sums, the assignment totals and the centres. -/
theorem algebraic : Cert.algebraic_KernelIdeal_ReferenceIdeal := by
  intro m ρ m' ρ' _ hagree
  refine ⟨fun c => Cert.KernelIdeal.Tail.result m c, Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  exact Cert.ReferenceIdeal.RefRun.ref_result _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
